-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x48 : Shape := ⟨2, ![1048576, 48]⟩
abbrev S8x48 : Shape := ⟨2, ![8, 48]⟩
abbrev S8 : Shape := ⟨1, ![8]⟩
abbrev S48x8 : Shape := ⟨2, ![48, 8]⟩
abbrev S48 : Shape := ⟨1, ![48]⟩
abbrev S_ : Shape := ⟨0, ![]⟩

class Facts : Prop where
  bcast_S_S1048576x48 : S_.BroadcastsInDim S1048576x48 (![] : Fin 0 → Fin S1048576x48.rank)
  reducesTo_S1048576x48_S_d0_1 : S1048576x48.ReducesTo [0, 1] S_
  h_S_ : 0 < S_.numel
  bcast_S_S8x48 : S_.BroadcastsInDim S8x48 (![] : Fin 0 → Fin S8x48.rank)
  reducesTo_S8x48_S_d0_1 : S8x48.ReducesTo [0, 1] S_
  bcast_S_S8 : S_.BroadcastsInDim S8 (![] : Fin 0 → Fin S8.rank)
  reducesTo_S8_S_d0 : S8.ReducesTo [0] S_
  bcast_S_S48x8 : S_.BroadcastsInDim S48x8 (![] : Fin 0 → Fin S48x8.rank)
  reducesTo_S48x8_S_d0_1 : S48x8.ReducesTo [0, 1] S_
  bcast_S_S48 : S_.BroadcastsInDim S48 (![] : Fin 0 → Fin S48.rank)
  reducesTo_S48_S_d0 : S48.ReducesTo [0] S_

variable [Facts]

def fn_part2 {F : FTy → Type} [FloatOps F] (main_arg7 : FVec F S48x8 .f32) (main_arg8 : FVec F S48 .f32) (main_v33 : IVec S_ 1) : IVec S_ 1 :=
  let main_v34 : FVec F S48x8 .f32 := Host.absf main_arg7
  let main_cst_12 : FVec F S_ .f32 := constant S_ .f32 0x7F800000#32
  let main_v35 : FVec F S48x8 .f32 := broadcastInDim S48x8 ![] bcast_S_S48x8 main_cst_12
  let main_v36 : IVec S48x8 1 := cmpf .olt main_v34 main_v35
  let main_c_13 : IVec S_ 1 := constantI S_ 1 1#1
  let main_v37 : IVec S_ 1 := (fun x v => Host.reduce IntOp.andi x v reducesTo_S48x8_S_d0_1 h_S_) main_v36 main_c_13
  let main_v38 : IVec S_ 1 := andi main_v33 main_v37
  let main_v39 : FVec F S48 .f32 := Host.absf main_arg8
  let main_cst_14 : FVec F S_ .f32 := constant S_ .f32 0x7F800000#32
  let main_v40 : FVec F S48 .f32 := broadcastInDim S48 ![] bcast_S_S48 main_cst_14
  let main_v41 : IVec S48 1 := cmpf .olt main_v39 main_v40
  let main_c_15 : IVec S_ 1 := constantI S_ 1 1#1
  let main_v42 : IVec S_ 1 := (fun x v => Host.reduce IntOp.andi x v reducesTo_S48_S_d0 h_S_) main_v41 main_c_15
  let main_v43 : IVec S_ 1 := andi main_v38 main_v42
  main_v43

def fn_part1 {F : FTy → Type} [FloatOps F] (main_arg4 : FVec F S8 .f32) (main_arg5 : FVec F S8x48 .f32) (main_arg6 : FVec F S8 .f32) (main_arg7 : FVec F S48x8 .f32) (main_arg8 : FVec F S48 .f32) (main_v13 : IVec S_ 1) (main_v16 : IVec S8x48 1) : IVec S_ 1 :=
  let main_c_5 : IVec S_ 1 := constantI S_ 1 1#1
  let main_v17 : IVec S_ 1 := (fun x v => Host.reduce IntOp.andi x v reducesTo_S8x48_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x48 .f32 := Host.absf main_arg5
  let main_cst_8 : FVec F S_ .f32 := constant S_ .f32 0x7F800000#32
  let main_v25 : FVec F S8x48 .f32 := broadcastInDim S8x48 ![] bcast_S_S8x48 main_cst_8
  let main_v26 : IVec S8x48 1 := cmpf .olt main_v24 main_v25
  let main_c_9 : IVec S_ 1 := constantI S_ 1 1#1
  let main_v27 : IVec S_ 1 := (fun x v => Host.reduce IntOp.andi x v reducesTo_S8x48_S_d0_1 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg7 main_arg8 main_v33

def fn {F : FTy → Type} [FloatOps F] (main_arg0 : FVec F S1048576x48 .f32) (main_arg1 : FVec F S8x48 .f32) (main_arg2 : FVec F S8 .f32) (main_arg3 : FVec F S8x48 .f32) (main_arg4 : FVec F S8 .f32) (main_arg5 : FVec F S8x48 .f32) (main_arg6 : FVec F S8 .f32) (main_arg7 : FVec F S48x8 .f32) (main_arg8 : FVec F S48 .f32) : IVec S_ 1 :=
  let main_v0 : FVec F S1048576x48 .f32 := Host.absf main_arg0
  let main_cst : FVec F S_ .f32 := constant S_ .f32 0x7F800000#32
  let main_v1 : FVec F S1048576x48 .f32 := broadcastInDim S1048576x48 ![] bcast_S_S1048576x48 main_cst
  let main_v2 : IVec S1048576x48 1 := cmpf .olt main_v0 main_v1
  let main_c : IVec S_ 1 := constantI S_ 1 1#1
  let main_v3 : IVec S_ 1 := (fun x v => Host.reduce IntOp.andi x v reducesTo_S1048576x48_S_d0_1 h_S_) main_v2 main_c
  let main_v4 : FVec F S8x48 .f32 := Host.absf main_arg1
  let main_cst_0 : FVec F S_ .f32 := constant S_ .f32 0x7F800000#32
  let main_v5 : FVec F S8x48 .f32 := broadcastInDim S8x48 ![] bcast_S_S8x48 main_cst_0
  let main_v6 : IVec S8x48 1 := cmpf .olt main_v4 main_v5
  let main_c_1 : IVec S_ 1 := constantI S_ 1 1#1
  let main_v7 : IVec S_ 1 := (fun x v => Host.reduce IntOp.andi x v reducesTo_S8x48_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x48 .f32 := Host.absf main_arg3
  let main_cst_4 : FVec F S_ .f32 := constant S_ .f32 0x7F800000#32
  let main_v15 : FVec F S8x48 .f32 := broadcastInDim S8x48 ![] bcast_S_S8x48 main_cst_4
  let main_v16 : IVec S8x48 1 := cmpf .olt main_v14 main_v15
  fn_part1 (F := F) main_arg4 main_arg5 main_arg6 main_arg7 main_arg8 main_v13 main_v16
-- ==== Kernel.lean ====
abbrev S1048576x48 : Shape := ⟨2, ![1048576, 48]⟩
abbrev S8x48 : Shape := ⟨2, ![8, 48]⟩
abbrev S8 : Shape := ⟨1, ![8]⟩
abbrev S48x8 : Shape := ⟨2, ![48, 8]⟩
abbrev S48 : Shape := ⟨1, ![48]⟩
abbrev S1x8 : Shape := ⟨2, ![1, 8]⟩
abbrev S1x48 : Shape := ⟨2, ![1, 48]⟩
abbrev S1048576x8 : Shape := ⟨2, ![1048576, 8]⟩
abbrev S8x8 : Shape := ⟨2, ![8, 8]⟩
abbrev S8192x48 : Shape := ⟨2, ![8192, 48]⟩
abbrev S8192x8 : Shape := ⟨2, ![8192, 8]⟩
abbrev S_ : Shape := ⟨0, ![]⟩
abbrev S8x1 : Shape := ⟨2, ![8, 1]⟩

abbrev nBuf : Space → Nat
  | .hbm => 34
  | .vmem => 18
  | .smem => 0
  | _ => 0

abbrev bufTy : (tb : Table) → Fin (tcTables nBuf tb) → BufTy
  | .hbm, ⟨0, _⟩ => ⟨S1048576x48, .f32⟩
  | .hbm, ⟨1, _⟩ => ⟨S8x48, .f32⟩
  | .hbm, ⟨2, _⟩ => ⟨S8, .f32⟩
  | .hbm, ⟨3, _⟩ => ⟨S8x48, .f32⟩
  | .hbm, ⟨4, _⟩ => ⟨S8, .f32⟩
  | .hbm, ⟨5, _⟩ => ⟨S8x48, .f32⟩
  | .hbm, ⟨6, _⟩ => ⟨S8, .f32⟩
  | .hbm, ⟨7, _⟩ => ⟨S48x8, .f32⟩
  | .hbm, ⟨8, _⟩ => ⟨S48, .f32⟩
  | .hbm, ⟨9, _⟩ => ⟨S1x8, .f32⟩
  | .hbm, ⟨10, _⟩ => ⟨S1x8, .f32⟩
  | .hbm, ⟨11, _⟩ => ⟨S1x8, .f32⟩
  | .hbm, ⟨12, _⟩ => ⟨S1x48, .f32⟩
  | .hbm, ⟨13, _⟩ => ⟨S1048576x8, .f32⟩
  | .hbm, ⟨14, _⟩ => ⟨S8x8, .f32⟩
  | .hbm, ⟨15, _⟩ => ⟨S_, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S8x1, .f32⟩
  | .hbm, ⟨21, _⟩ => ⟨S8x8, .f32⟩
  | .hbm, ⟨22, _⟩ => ⟨S8x8, .f32⟩
  | .hbm, ⟨23, _⟩ => ⟨S8x8, .f32⟩
  | .hbm, ⟨24, _⟩ => ⟨S_, .f32⟩
  | .hbm, ⟨25, _⟩ => ⟨S8, .f32⟩
  | .hbm, ⟨26, _⟩ => ⟨S8x1, .f32⟩
  | .hbm, ⟨27, _⟩ => ⟨S8x8, .f32⟩
  | .hbm, ⟨28, _⟩ => ⟨S8x8, .f32⟩
  | .hbm, ⟨29, _⟩ => ⟨S_, .f32⟩
  | .hbm, ⟨30, _⟩ => ⟨S_, .f32⟩
  | .hbm, ⟨31, _⟩ => ⟨S8x8, .f32⟩
  | .hbm, ⟨32, _⟩ => ⟨S8x8, .f32⟩
  | .hbm, ⟨33, _⟩ => ⟨S1048576x48, .f32⟩
  | .local _ .vmem, ⟨0, _⟩ => ⟨S8192x48, .f32⟩
  | .local _ .vmem, ⟨1, _⟩ => ⟨S8192x48, .f32⟩
  | .local _ .vmem, ⟨2, _⟩ => ⟨S8x48, .f32⟩
  | .local _ .vmem, ⟨3, _⟩ => ⟨S1x8, .f32⟩
  | .local _ .vmem, ⟨4, _⟩ => ⟨S8x48, .f32⟩
  | .local _ .vmem, ⟨5, _⟩ => ⟨S1x8, .f32⟩
  | .local _ .vmem, ⟨6, _⟩ => ⟨S8x48, .f32⟩
  | .local _ .vmem, ⟨7, _⟩ => ⟨S1x8, .f32⟩
  | .local _ .vmem, ⟨8, _⟩ => ⟨S8192x8, .f32⟩
  | .local _ .vmem, ⟨9, _⟩ => ⟨S8192x8, .f32⟩
  | .local _ .vmem, ⟨10, _⟩ => ⟨S8x8, .f32⟩
  | .local _ .vmem, ⟨11, _⟩ => ⟨S8192x8, .f32⟩
  | .local _ .vmem, ⟨12, _⟩ => ⟨S8192x8, .f32⟩
  | .local _ .vmem, ⟨13, _⟩ => ⟨S8x8, .f32⟩
  | .local _ .vmem, ⟨14, _⟩ => ⟨S48x8, .f32⟩
  | .local _ .vmem, ⟨15, _⟩ => ⟨S1x48, .f32⟩
  | .local _ .vmem, ⟨16, _⟩ => ⟨S8192x48, .f32⟩
  | .local _ .vmem, ⟨17, _⟩ => ⟨S8192x48, .f32⟩
  | _, _ => ⟨S1048576x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S48x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x48 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8192x48 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S8_S1x8 : S8.ShapeCasts S1x8
  shapeCasts_S48_S1x48 : S48.ShapeCasts S1x48
  inb_S8x8_S8x8_0_0 : ∀ a, (![0, 0] : Fin 2 → Nat) a + S8x8.size a ≤ S8x8.size a
  h_S8x8 : 0 < S8x8.numel
  inb_S8192x48_S8192x48_0_0 : ∀ a, (![0, 0] : Fin 2 → Nat) a + S8192x48.size a ≤ S8192x48.size a
  h_S8192x48 : 0 < S8192x48.numel
  bitsLt_bf16_f32 : FTy.bits .bf16 < FTy.bits .f32
  inb_S8x48_S8x48_0_0 : ∀ a, (![0, 0] : Fin 2 → Nat) a + S8x48.size a ≤ S8x48.size a
  h_S8x48 : 0 < S8x48.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S8192x8 : S1x8.Broadcasts S8192x8
  inb_S8192x8_S8192x8_0_0 : ∀ a, (![0, 0] : Fin 2 → Nat) a + S8192x8.size a ≤ S8192x8.size a
  h_S8192x8 : 0 < S8192x8.numel
  shapeCasts_S8x8_S8x8 : S8x8.ShapeCasts S8x8
  reducesTo_S8x8_S8_d1 : S8x8.ReducesTo [1] S8
  h_S_ : 0 < S_.numel
  bcast_S_S8 : S_.BroadcastsInDim S8 (![] : Fin 0 → Fin S8.rank)
  bcast_S8_S8x1_0 : S8.BroadcastsInDim S8x1 (![0] : Fin 1 → Fin S8x1.rank)
  bcast_S8x1_S8x8_0_1 : S8x1.BroadcastsInDim S8x8 (![0, 1] : Fin 2 → Fin S8x8.rank)
  bcast_S_S8x8 : S_.BroadcastsInDim S8x8 (![] : Fin 0 → Fin S8x8.rank)
  shapeCasts_S8192x8_S8192x8 : S8192x8.ShapeCasts S8192x8
  inb_S48x8_S48x8_0_0 : ∀ a, (![0, 0] : Fin 2 → Nat) a + S48x8.size a ≤ S48x8.size a
  h_S48x8 : 0 < S48x8.numel
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S8192x48 : S1x48.Broadcasts S8192x48
  dot_S8192x48_S8x48_S8192x8_1_1_0_0_n_n_wf : DotDims.WF S8192x48 S8x48 S8192x8 [1] [1] [0] [0] [] []
  dot_S8192x8_S8192x8_S8x8_0_0_1_1_n_n_wf : DotDims.WF S8192x8 S8192x8 S8x8 [0] [0] [1] [1] [] []
  dot_S8192x8_S8x8_S8192x8_1_0_0_1_n_n_wf : DotDims.WF S8192x8 S8x8 S8192x8 [1] [0] [0] [1] [] []
  dot_S8192x8_S48x8_S8192x48_1_1_0_0_n_n_wf : DotDims.WF S8192x8 S48x8 S8192x48 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x48.size a ≤ S1048576x48.size a
  hwx0_0 : ∀ i : grid0.Coords, EltTy.bits .f32 = 32 ∨ (Rect.block (s := S1048576x48) S8192x48.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x48.size a ≤ S8x48.size a
  hwx0_1 : ∀ i : grid0.Coords, EltTy.bits .f32 = 32 ∨ (Rect.block (s := S8x48) S8x48.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x48.size a ≤ S8x48.size a
  hwx0_3 : ∀ i : grid0.Coords, EltTy.bits .f32 = 32 ∨ (Rect.block (s := S8x48) S8x48.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8.size a ≤ S1x8.size a
  hwx0_4 : ∀ i : grid0.Coords, EltTy.bits .f32 = 32 ∨ (Rect.block (s := S1x8) S1x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x48.size a ≤ S8x48.size a
  hwx0_5 : ∀ i : grid0.Coords, EltTy.bits .f32 = 32 ∨ (Rect.block (s := S8x48) S8x48.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x8.size a ≤ S1x8.size a
  hwx0_6 : ∀ i : grid0.Coords, EltTy.bits .f32 = 32 ∨ (Rect.block (s := S1x8) S1x8.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x8.size a ≤ S1048576x8.size a
  hwx0_7 : ∀ i : grid0.Coords, EltTy.bits .f32 = 32 ∨ (Rect.block (s := S1048576x8) S8192x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x8.size a ≤ S8x8.size a
  hwx0_8 : ∀ i : grid0.Coords, EltTy.bits .f32 = 32 ∨ (Rect.block (s := S8x8) S8x8.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x8.size a ≤ S1048576x8.size a
  hwx1_0 : ∀ i : grid1.Coords, EltTy.bits .f32 = 32 ∨ (Rect.block (s := S1048576x8) S8192x8.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x8.size a ≤ S8x8.size a
  hwx1_1 : ∀ i : grid1.Coords, EltTy.bits .f32 = 32 ∨ (Rect.block (s := S8x8) S8x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S48x8.size a ≤ S48x8.size a
  hwx1_2 : ∀ i : grid1.Coords, EltTy.bits .f32 = 32 ∨ (Rect.block (s := S48x8) S48x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x48.size a ≤ S1x48.size a
  hwx1_3 : ∀ i : grid1.Coords, EltTy.bits .f32 = 32 ∨ (Rect.block (s := S1x48) S1x48.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8192x48.size a ≤ S1048576x48.size a
  hwx1_4 : ∀ i : grid1.Coords, EltTy.bits .f32 = 32 ∨ (Rect.block (s := S1048576x48) S8192x48.size (cc1_transform_4 i) (hinb1_4 i)).WholeWords (EltTy.packing .f32)

variable [Facts₀]

def dot_S8192x48_S8x48_S8192x8_1_1_0_0_n_n : DotDims S8192x48 S8x48 S8192x8 where
  lhsContracting := [1]
  rhsContracting := [1]
  lhsNonContracting := [0]
  rhsNonContracting := [0]
  lhsBatch := []
  rhsBatch := []
  wf := dot_S8192x48_S8x48_S8192x8_1_1_0_0_n_n_wf
def dot_S8192x8_S8192x8_S8x8_0_0_1_1_n_n : DotDims S8192x8 S8192x8 S8x8 where
  lhsContracting := [0]
  rhsContracting := [0]
  lhsNonContracting := [1]
  rhsNonContracting := [1]
  lhsBatch := []
  rhsBatch := []
  wf := dot_S8192x8_S8192x8_S8x8_0_0_1_1_n_n_wf
def dot_S8192x8_S8x8_S8192x8_1_0_0_1_n_n : DotDims S8192x8 S8x8 S8192x8 where
  lhsContracting := [1]
  rhsContracting := [0]
  lhsNonContracting := [0]
  rhsNonContracting := [1]
  lhsBatch := []
  rhsBatch := []
  wf := dot_S8192x8_S8x8_S8192x8_1_0_0_1_n_n_wf
def dot_S8192x8_S48x8_S8192x48_1_1_0_0_n_n : DotDims S8192x8 S48x8 S8192x48 where
  lhsContracting := [1]
  rhsContracting := [1]
  lhsNonContracting := [0]
  rhsNonContracting := [0]
  lhsBatch := []
  rhsBatch := []
  wf := dot_S8192x8_S48x8_S8192x48_1_1_0_0_n_n_wf

abbrev win0_0 : Pipeline.Window sig grid0 :=
  Pipeline.Window.ofSpec (Memref.whole main_arg0) S8192x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S8x48.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8x48.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S8192x8.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S8x8.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v4_0) S8192x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S8x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S48x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x48.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S8192x48.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1048576x48 : Shape := ⟨2, ![1048576, 48]⟩
abbrev S8x48 : Shape := ⟨2, ![8, 48]⟩
abbrev S8 : Shape := ⟨1, ![8]⟩
abbrev S48x8 : Shape := ⟨2, ![48, 8]⟩
abbrev S48 : Shape := ⟨1, ![48]⟩
abbrev S1048576x8 : Shape := ⟨2, ![1048576, 8]⟩
abbrev S1x8 : Shape := ⟨2, ![1, 8]⟩
abbrev S8x8 : Shape := ⟨2, ![8, 8]⟩
abbrev S_ : Shape := ⟨0, ![]⟩
abbrev S8x1 : Shape := ⟨2, ![8, 1]⟩
abbrev S1x48 : Shape := ⟨2, ![1, 48]⟩

abbrev nBuf : Space → Nat
  | .hbm => 49
  | .vmem => 0
  | .smem => 0
  | _ => 0

abbrev bufTy : (tb : Table) → Fin (tcTables nBuf tb) → BufTy
  | .hbm, ⟨0, _⟩ => ⟨S1048576x48, .f32⟩
  | .hbm, ⟨1, _⟩ => ⟨S8x48, .f32⟩
  | .hbm, ⟨2, _⟩ => ⟨S8, .f32⟩
  | .hbm, ⟨3, _⟩ => ⟨S8x48, .f32⟩
  | .hbm, ⟨4, _⟩ => ⟨S8, .f32⟩
  | .hbm, ⟨5, _⟩ => ⟨S8x48, .f32⟩
  | .hbm, ⟨6, _⟩ => ⟨S8, .f32⟩
  | .hbm, ⟨7, _⟩ => ⟨S48x8, .f32⟩
  | .hbm, ⟨8, _⟩ => ⟨S48, .f32⟩
  | .hbm, ⟨9, _⟩ => ⟨S48x8, .f32⟩
  | .hbm, ⟨10, _⟩ => ⟨S1048576x8, .f32⟩
  | .hbm, ⟨11, _⟩ => ⟨S1x8, .f32⟩
  | .hbm, ⟨12, _⟩ => ⟨S1048576x8, .f32⟩
  | .hbm, ⟨13, _⟩ => ⟨S1048576x8, .f32⟩
  | .hbm, ⟨14, _⟩ => ⟨S48x8, .f32⟩
  | .hbm, ⟨15, _⟩ => ⟨S1048576x8, .f32⟩
  | .hbm, ⟨16, _⟩ => ⟨S1x8, .f32⟩
  | .hbm, ⟨17, _⟩ => ⟨S1048576x8, .f32⟩
  | .hbm, ⟨18, _⟩ => ⟨S1048576x8, .f32⟩
  | .hbm, ⟨19, _⟩ => ⟨S48x8, .f32⟩
  | .hbm, ⟨20, _⟩ => ⟨S1048576x8, .f32⟩
  | .hbm, ⟨21, _⟩ => ⟨S1x8, .f32⟩
  | .hbm, ⟨22, _⟩ => ⟨S1048576x8, .f32⟩
  | .hbm, ⟨23, _⟩ => ⟨S1048576x8, .f32⟩
  | .hbm, ⟨24, _⟩ => ⟨S8x8, .f32⟩
  | .hbm, ⟨25, _⟩ => ⟨S_, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S8x1, .f32⟩
  | .hbm, ⟨31, _⟩ => ⟨S8x8, .f32⟩
  | .hbm, ⟨32, _⟩ => ⟨S8x8, .f32⟩
  | .hbm, ⟨33, _⟩ => ⟨S8x8, .f32⟩
  | .hbm, ⟨34, _⟩ => ⟨S_, .f32⟩
  | .hbm, ⟨35, _⟩ => ⟨S8, .f32⟩
  | .hbm, ⟨36, _⟩ => ⟨S8x1, .f32⟩
  | .hbm, ⟨37, _⟩ => ⟨S8x8, .f32⟩
  | .hbm, ⟨38, _⟩ => ⟨S8x8, .f32⟩
  | .hbm, ⟨39, _⟩ => ⟨S_, .f32⟩
  | .hbm, ⟨40, _⟩ => ⟨S_, .f32⟩
  | .hbm, ⟨41, _⟩ => ⟨S8x8, .f32⟩
  | .hbm, ⟨42, _⟩ => ⟨S8x8, .f32⟩
  | .hbm, ⟨43, _⟩ => ⟨S1048576x8, .f32⟩
  | .hbm, ⟨44, _⟩ => ⟨S8x48, .f32⟩
  | .hbm, ⟨45, _⟩ => ⟨S1048576x48, .f32⟩
  | .hbm, ⟨46, _⟩ => ⟨S1x48, .f32⟩
  | .hbm, ⟨47, _⟩ => ⟨S1048576x48, .f32⟩
  | .hbm, ⟨48, _⟩ => ⟨S1048576x48, .f32⟩
  | _, _ => ⟨S1048576x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]

class Facts₀ : Prop where
  transposes_S8x48_S48x8_1_0 : S8x48.Transposes [1, 0] S48x8
  bcast_S8_S1x8_1 : S8.BroadcastsInDim S1x8 (![1] : Fin 1 → Fin S1x8.rank)
  bcast_S1x8_S1048576x8_0_1 : S1x8.BroadcastsInDim S1048576x8 (![0, 1] : Fin 2 → Fin S1048576x8.rank)
  reducesTo_S8x8_S8_d1 : S8x8.ReducesTo [1] S8
  h_S_ : 0 < S_.numel
  bcast_S_S8 : S_.BroadcastsInDim S8 (![] : Fin 0 → Fin S8.rank)
  bcast_S8_S8x1_0 : S8.BroadcastsInDim S8x1 (![0] : Fin 1 → Fin S8x1.rank)
  bcast_S8x1_S8x8_0_1 : S8x1.BroadcastsInDim S8x8 (![0, 1] : Fin 2 → Fin S8x8.rank)
  bcast_S_S8x8 : S_.BroadcastsInDim S8x8 (![] : Fin 0 → Fin S8x8.rank)
  transposes_S48x8_S8x48_1_0 : S48x8.Transposes [1, 0] S8x48
  bcast_S48_S1x48_1 : S48.BroadcastsInDim S1x48 (![1] : Fin 1 → Fin S1x48.rank)
  bcast_S1x48_S1048576x48_0_1 : S1x48.BroadcastsInDim S1048576x48 (![0, 1] : Fin 2 → Fin S1048576x48.rank)
  dot_S1048576x48_S48x8_S1048576x8_1_0_0_1_n_n_wf : DotDims.WF S1048576x48 S48x8 S1048576x8 [1] [0] [0] [1] [] []
  dot_S1048576x8_S1048576x8_S8x8_0_0_1_1_n_n_wf : DotDims.WF S1048576x8 S1048576x8 S8x8 [0] [0] [1] [1] [] []
  dot_S1048576x8_S8x8_S1048576x8_1_0_0_1_n_n_wf : DotDims.WF S1048576x8 S8x8 S1048576x8 [1] [0] [0] [1] [] []
  dot_S1048576x8_S8x48_S1048576x48_1_0_0_1_n_n_wf : DotDims.WF S1048576x8 S8x48 S1048576x48 [1] [0] [0] [1] [] []

variable [Facts₀]

def dot_S1048576x48_S48x8_S1048576x8_1_0_0_1_n_n : DotDims S1048576x48 S48x8 S1048576x8 where
  lhsContracting := [1]
  rhsContracting := [0]
  lhsNonContracting := [0]
  rhsNonContracting := [1]
  lhsBatch := []
  rhsBatch := []
  wf := dot_S1048576x48_S48x8_S1048576x8_1_0_0_1_n_n_wf
def dot_S1048576x8_S1048576x8_S8x8_0_0_1_1_n_n : DotDims S1048576x8 S1048576x8 S8x8 where
  lhsContracting := [0]
  rhsContracting := [0]
  lhsNonContracting := [1]
  rhsNonContracting := [1]
  lhsBatch := []
  rhsBatch := []
  wf := dot_S1048576x8_S1048576x8_S8x8_0_0_1_1_n_n_wf
def dot_S1048576x8_S8x8_S1048576x8_1_0_0_1_n_n : DotDims S1048576x8 S8x8 S1048576x8 where
  lhsContracting := [1]
  rhsContracting := [0]
  lhsNonContracting := [0]
  rhsNonContracting := [1]
  lhsBatch := []
  rhsBatch := []
  wf := dot_S1048576x8_S8x8_S1048576x8_1_0_0_1_n_n_wf
def dot_S1048576x8_S8x48_S1048576x48_1_0_0_1_n_n : DotDims S1048576x8 S8x48 S1048576x48 where
  lhsContracting := [1]
  rhsContracting := [0]
  lhsNonContracting := [0]
  rhsNonContracting := [1]
  lhsBatch := []
  rhsBatch := []
  wf := dot_S1048576x8_S8x48_S1048576x48_1_0_0_1_n_n_wf

class Facts : Prop extends Facts₀ where

variable [Facts]
-- ==== Proof.Spec.lean ====
/-
  The mathematics both programs compute, stated once over explicit coordinates, on the extended reals.

  With N = 1048576 rows, an input x : [N, 48] and three weight matrices W : [8, 48] with biases β : 8,
      proj x W β (n, j)   = (Σ_{k < 48} x(n, k) · W(j, k)) + β(j)                    (Q, K and V)
      gram Q K (h, k)     = Σ_{n < N} Q(n, h) · K(n, k)                              (the scores QᵀK)
      outp V A Wo βo (n, d) = (Σ_{h < 8} (Σ_{j < 8} V(n, j) · A(j, h)) · Wo(d, h)) + βo(d)
  where A is the 8 × 8 attention matrix obtained from the scores.  The kernel forms the scores block by block,
  128 blocks of 8192 rows added one after the other into a zeroed 8 × 8 buffer; that this is the one sum over all
  N rows is `sum_blocks`: a sum over Fin (128 · 8192) split by quotient and remainder, in any commutative monoid
  (no finiteness is used: only that addition on the extended reals is associative and commutative).
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.Attn

open Idealize.ShloMosaic Idealize.ShloMosaic.ValueIdx

/-- One of the three linear projections at row `n`, column `j`. -/
def projAt (x : FVec Ideal ⟨2, ![1048576, 48]⟩ .f32) (W : FVec Ideal ⟨2, ![8, 48]⟩ .f32) (β : Fin 8 → EReal)
    (n : Fin 1048576) (j : Fin 8) : EReal :=
  (∑ k : Fin 48, x (ix2 n k) * W (ix2 j k)) + β j

/-- The projection as an [N, 8] array. -/
def proj (x : FVec Ideal ⟨2, ![1048576, 48]⟩ .f32) (W : FVec Ideal ⟨2, ![8, 48]⟩ .f32) (β : Fin 8 → EReal) :
    FVec Ideal ⟨2, ![1048576, 8]⟩ .f32 :=
  fun i => projAt x W β (i 0) (i 1)

theorem proj_ix2 (x : FVec Ideal ⟨2, ![1048576, 48]⟩ .f32) (W : FVec Ideal ⟨2, ![8, 48]⟩ .f32) (β : Fin 8 → EReal)
    (n : Fin 1048576) (j : Fin 8) : proj x W β (ix2 n j) = projAt x W β n j := rfl

/-- The scores: entry (h, k) of QᵀK, one sum over all rows. -/
def gramAt (Q K : FVec Ideal ⟨2, ![1048576, 8]⟩ .f32) (h k : Fin 8) : EReal :=
  ∑ n : Fin 1048576, Q (ix2 n h) * K (ix2 n k)

def gram (Q K : FVec Ideal ⟨2, ![1048576, 8]⟩ .f32) : FVec Ideal ⟨2, ![8, 8]⟩ .f32 :=
  fun i => gramAt Q K (i 0) (i 1)

theorem gram_ix2 (Q K : FVec Ideal ⟨2, ![1048576, 8]⟩ .f32) (h k : Fin 8) : gram Q K (ix2 h k) = gramAt Q K h k := rfl

/-- The output at row `n`, column `d`: (V · A) · Woᵀ + βo. -/
def outAt (V : FVec Ideal ⟨2, ![1048576, 8]⟩ .f32) (A : FVec Ideal ⟨2, ![8, 8]⟩ .f32) (Wo : FVec Ideal ⟨2, ![48, 8]⟩ .f32)
    (βo : Fin 48 → EReal) (n : Fin 1048576) (d : Fin 48) : EReal :=
  (∑ h : Fin 8, (∑ j : Fin 8, V (ix2 n j) * A (ix2 j h)) * Wo (ix2 d h)) + βo d

def outp (V : FVec Ideal ⟨2, ![1048576, 8]⟩ .f32) (A : FVec Ideal ⟨2, ![8, 8]⟩ .f32) (Wo : FVec Ideal ⟨2, ![48, 8]⟩ .f32)
    (βo : Fin 48 → EReal) : FVec Ideal ⟨2, ![1048576, 48]⟩ .f32 :=
  fun i => outAt V A Wo βo (i 0) (i 1)

theorem outp_ix2 (V : FVec Ideal ⟨2, ![1048576, 8]⟩ .f32) (A : FVec Ideal ⟨2, ![8, 8]⟩ .f32) (Wo : FVec Ideal ⟨2, ![48, 8]⟩ .f32)
    (βo : Fin 48 → EReal) (n : Fin 1048576) (d : Fin 48) : outp V A Wo βo (ix2 n d) = outAt V A Wo βo n d := rfl

/-- Row `r` of block `t` (blocks of 8192 rows) as a row of the whole array. -/
def rowOf (t : Fin 128) (r : Fin 8192) : Fin 1048576 := ⟨t.val * 8192 + r.val, by have := t.isLt; have := r.isLt; omega⟩

/-- A sum over all N = 128 · 8192 rows is the sum over the 128 blocks of the sums over each block's 8192 rows. -/
theorem sum_blocks {M : Type*} [AddCommMonoid M] (f : Fin 1048576 → M) :
    ∑ t : Fin 128, ∑ r : Fin 8192, f (rowOf t r) = ∑ n : Fin 1048576, f n := by
  rw [← Fintype.sum_prod_type' (fun t r => f (rowOf t r))]
  refine Fintype.sum_equiv (finProdFinEquiv (m := 128) (n := 8192)) _ _ (fun p => ?_)
  refine congrArg f (Fin.ext ?_)
  show p.1.val * 8192 + p.2.val = (finProdFinEquiv (m := 128) (n := 8192) p).val
  rw [finProdFinEquiv_apply_val]
  omega

end Cert.Attn

end
-- ==== Proof.Whole.lean ====
/-
  The whole computation as one function of the nine argument arrays, the map σ from the scores to the attention
  matrix left abstract (both programs apply the same chain of host operations there, and nothing is used of it):
      attn σ x Wk bk Wq bq Wv bv Wo bo = outp (proj x Wv bv) (σ (gram (proj x Wq bq) (proj x Wk bk))) Wo bo.
-/
import proofs.«160793_j13984413516170_1_alg».proof.Proof.Spec

noncomputable section

namespace Cert.Attn

open Idealize.ShloMosaic Idealize.ShloMosaic.ValueIdx

def attn (σ : FVec Ideal ⟨2, ![8, 8]⟩ .f32 → FVec Ideal ⟨2, ![8, 8]⟩ .f32)
    (x : FVec Ideal ⟨2, ![1048576, 48]⟩ .f32) (Wk : FVec Ideal ⟨2, ![8, 48]⟩ .f32) (bk : FVec Ideal ⟨1, ![8]⟩ .f32)
    (Wq : FVec Ideal ⟨2, ![8, 48]⟩ .f32) (bq : FVec Ideal ⟨1, ![8]⟩ .f32) (Wv : FVec Ideal ⟨2, ![8, 48]⟩ .f32) (bv : FVec Ideal ⟨1, ![8]⟩ .f32)
    (Wo : FVec Ideal ⟨2, ![48, 8]⟩ .f32) (bo : FVec Ideal ⟨1, ![48]⟩ .f32) : FVec Ideal ⟨2, ![1048576, 48]⟩ .f32 :=
  outp (proj x Wv (fun j => bv (ix1 j)))
    (σ (gram (proj x Wq (fun j => bq (ix1 j))) (proj x Wk (fun j => bk (ix1 j)))))
    Wo (fun d => bo (ix1 d))

end Cert.Attn

end
-- ==== Proof.Pass1Pieces.lean ====
/-
  The first kernel's body, read as values.  At a grid point the body holds a block of 8192 rows of x and the three
  weight matrices with their biases; it stores the block's V rows, and adds the block's 8 × 8 partial product
  Q_blkᵀ K_blk into the scores buffer, which the first point zeroes beforehand.

  Every load and every store of the body spans a whole buffer at zero offsets.  So a load reads the buffer's contents
  as they stand, a store leaves exactly its payload, and of two stores to one buffer the later decides: what the body
  leaves in an output buffer is the payload of the last store to it, evaluated at the loaded blocks (and, for the
  scores, at the zero block on the first point, at the previous contents afterwards).
-/
import proofs.«160793_j13984413516170_1_alg».proof.Proof.Gen.KernelIdeal.Frame
import proofs.«160793_j13984413516170_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

set_option maxRecDepth 16384

noncomputable section

namespace Cert.KernelIdeal.AttnValue

open Cert.KernelIdeal Cert.KernelIdeal.Gen Cert.Attn
open Idealize.ShloMosaic Idealize.ShloMosaic.TcCoe Idealize.SL.Sem Idealize.ShloMosaic.ValueIdx
open Idealize.ShloMosaic.Pipeline (Dat)

variable {F : FTy → Type} [FloatOps F]

/-- First point: the V store's payload over the loaded blocks. -/
theorem out_A_7 (c : Dev nD) (i : grid0.Coords) (arg1 : Memref sig .tc .vmem S8192x48 .f32) (harg1 : arg1.IsWhole) (arg2 : Memref sig .tc .vmem S8x48 .f32) (harg2 : arg2.IsWhole) (arg3 : Memref sig .tc .vmem S1x8 .f32) (harg3 : arg3.IsWhole) (arg4 : Memref sig .tc .vmem S8x48 .f32) (harg4 : arg4.IsWhole) (arg5 : Memref sig .tc .vmem S1x8 .f32) (harg5 : arg5.IsWhole) (arg6 : Memref sig .tc .vmem S8x48 .f32) (harg6 : arg6.IsWhole) (arg7 : Memref sig .tc .vmem S1x8 .f32) (harg7 : arg7.IsWhole) (arg8 : Memref sig .tc .vmem S8192x8 .f32) (harg8 : arg8.IsWhole) (arg9 : Memref sig .tc .vmem S8x8 .f32) (harg9 : arg9.IsWhole) (hc0 : cond0_0 i) (x0 : Vec F S8192x48 .f32) (x1 : Vec F S8x48 .f32) (x2 : Vec F S1x8 .f32) (x3 : Vec F S8x48 .f32) (x4 : Vec F S1x8 .f32) (x5 : Vec F S8x48 .f32) (x6 : Vec F S1x8 .f32) :
    out0_A_7 c i arg1 harg1 arg2 harg2 arg3 harg3 arg4 harg4 arg5 harg5 arg6 harg6 arg7 harg7 arg8 harg8 arg9 harg9 hc0 x0 x1 x2 x3 x4 x5 x6 = k0_pay3 x0 x5 x6 := by
  -- the zero offsets, however spelt
  have hz : (![0, 0] : Fin 2 → Nat) = fun _ => 0 := funext fun a => by fin_cases a <;> rfl
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5 x6)]
  unfold kernelRun0_A
  dsimp only
  sl_unfold_words
  -- one store over the whole block: the buffer holds its payload
  rw [View.canon_unit_zero hz]
  -- each load reads a whole buffer, so it reads that buffer's contents
  simp only [View.readAt_eq_ld, harg1.read_unread, harg6.read_unread, harg7.read_unread,
    View.ld_unit_zero (S := S8192x48) hz, View.ld_unit_zero (S := S8x48) hz, View.ld_unit_zero (S := S1x8) hz]

/-- Later points: the same payload. -/
theorem out_B_7 (c : Dev nD) (i : grid0.Coords) (arg1 : Memref sig .tc .vmem S8192x48 .f32) (harg1 : arg1.IsWhole) (arg2 : Memref sig .tc .vmem S8x48 .f32) (harg2 : arg2.IsWhole) (arg3 : Memref sig .tc .vmem S1x8 .f32) (harg3 : arg3.IsWhole) (arg4 : Memref sig .tc .vmem S8x48 .f32) (harg4 : arg4.IsWhole) (arg5 : Memref sig .tc .vmem S1x8 .f32) (harg5 : arg5.IsWhole) (arg6 : Memref sig .tc .vmem S8x48 .f32) (harg6 : arg6.IsWhole) (arg7 : Memref sig .tc .vmem S1x8 .f32) (harg7 : arg7.IsWhole) (arg8 : Memref sig .tc .vmem S8192x8 .f32) (harg8 : arg8.IsWhole) (arg9 : Memref sig .tc .vmem S8x8 .f32) (harg9 : arg9.IsWhole) (hc0 : ¬cond0_0 i) (x0 : Vec F S8192x48 .f32) (x1 : Vec F S8x48 .f32) (x2 : Vec F S1x8 .f32) (x3 : Vec F S8x48 .f32) (x4 : Vec F S1x8 .f32) (x5 : Vec F S8x48 .f32) (x6 : Vec F S1x8 .f32) (xo8 : Vec F S8x8 .f32) :
    out0_B_7 c i arg1 harg1 arg2 harg2 arg3 harg3 arg4 harg4 arg5 harg5 arg6 harg6 arg7 harg7 arg8 harg8 arg9 harg9 hc0 x0 x1 x2 x3 x4 x5 x6 xo8 = k0_pay3 x0 x5 x6 := by
  have hz : (![0, 0] : Fin 2 → Nat) = fun _ => 0 := funext fun a => by fin_cases a <;> rfl
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 x6 xo8)]
  unfold kernelRun0_B
  dsimp only
  sl_unfold_words
  -- one store over the whole block: the buffer holds its payload
  rw [View.canon_unit_zero hz]
  simp only [View.readAt_eq_ld, harg1.read_unread, harg6.read_unread, harg7.read_unread,
    View.ld_unit_zero (S := S8192x48) hz, View.ld_unit_zero (S := S8x48) hz, View.ld_unit_zero (S := S1x8) hz]

/-- First point: the scores buffer is zeroed, then the block's partial product is added to it. -/
theorem out_A_8 (c : Dev nD) (i : grid0.Coords) (arg1 : Memref sig .tc .vmem S8192x48 .f32) (harg1 : arg1.IsWhole) (arg2 : Memref sig .tc .vmem S8x48 .f32) (harg2 : arg2.IsWhole) (arg3 : Memref sig .tc .vmem S1x8 .f32) (harg3 : arg3.IsWhole) (arg4 : Memref sig .tc .vmem S8x48 .f32) (harg4 : arg4.IsWhole) (arg5 : Memref sig .tc .vmem S1x8 .f32) (harg5 : arg5.IsWhole) (arg6 : Memref sig .tc .vmem S8x48 .f32) (harg6 : arg6.IsWhole) (arg7 : Memref sig .tc .vmem S1x8 .f32) (harg7 : arg7.IsWhole) (arg8 : Memref sig .tc .vmem S8192x8 .f32) (harg8 : arg8.IsWhole) (arg9 : Memref sig .tc .vmem S8x8 .f32) (harg9 : arg9.IsWhole) (hc0 : cond0_0 i) (x0 : Vec F S8192x48 .f32) (x1 : Vec F S8x48 .f32) (x2 : Vec F S1x8 .f32) (x3 : Vec F S8x48 .f32) (x4 : Vec F S1x8 .f32) (x5 : Vec F S8x48 .f32) (x6 : Vec F S1x8 .f32) :
    out0_A_8 c i arg1 harg1 arg2 harg2 arg3 harg3 arg4 harg4 arg5 harg5 arg6 harg6 arg7 harg7 arg8 harg8 arg9 harg9 hc0 x0 x1 x2 x3 x4 x5 x6 = k0_pay4 x0 x1 x3 x2 x4 (k0_pay1 (F := F)) := by
  have hz : (![0, 0] : Fin 2 → Nat) = fun _ => 0 := funext fun a => by fin_cases a <;> rfl
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4 x5 x6)]
  unfold kernelRun0_A
  dsimp only
  sl_unfold_words
  -- two stores over the whole block, the zero block first: the later one decides the contents
  rw [View.canon_cons_unit_zero (S := S8x8) hz]
  -- the accumulator the later store adds to is the zero block read back whole
  simp only [View.readAt_eq_ld, harg1.read_unread, harg2.read_unread, harg3.read_unread, harg4.read_unread,
    harg5.read_unread, View.ld_unit_zero (S := S8192x48) hz, View.ld_unit_zero (S := S8x48) hz, View.ld_unit_zero (S := S1x8) hz,
    View.readCov_unit_zero (S := S8x8) _ hz]

/-- Later points: the block's partial product is added to what the point before left. -/
theorem out_B_8 (c : Dev nD) (i : grid0.Coords) (arg1 : Memref sig .tc .vmem S8192x48 .f32) (harg1 : arg1.IsWhole) (arg2 : Memref sig .tc .vmem S8x48 .f32) (harg2 : arg2.IsWhole) (arg3 : Memref sig .tc .vmem S1x8 .f32) (harg3 : arg3.IsWhole) (arg4 : Memref sig .tc .vmem S8x48 .f32) (harg4 : arg4.IsWhole) (arg5 : Memref sig .tc .vmem S1x8 .f32) (harg5 : arg5.IsWhole) (arg6 : Memref sig .tc .vmem S8x48 .f32) (harg6 : arg6.IsWhole) (arg7 : Memref sig .tc .vmem S1x8 .f32) (harg7 : arg7.IsWhole) (arg8 : Memref sig .tc .vmem S8192x8 .f32) (harg8 : arg8.IsWhole) (arg9 : Memref sig .tc .vmem S8x8 .f32) (harg9 : arg9.IsWhole) (hc0 : ¬cond0_0 i) (x0 : Vec F S8192x48 .f32) (x1 : Vec F S8x48 .f32) (x2 : Vec F S1x8 .f32) (x3 : Vec F S8x48 .f32) (x4 : Vec F S1x8 .f32) (x5 : Vec F S8x48 .f32) (x6 : Vec F S1x8 .f32) (xo8 : Vec F S8x8 .f32) :
    out0_B_8 c i arg1 harg1 arg2 harg2 arg3 harg3 arg4 harg4 arg5 harg5 arg6 harg6 arg7 harg7 arg8 harg8 arg9 harg9 hc0 x0 x1 x2 x3 x4 x5 x6 xo8 = k0_pay4 x0 x1 x3 x2 x4 xo8 := by
  have hz : (![0, 0] : Fin 2 → Nat) = fun _ => 0 := funext fun a => by fin_cases a <;> rfl
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 x5 x6 xo8)]
  unfold kernelRun0_B
  dsimp only
  sl_unfold_words
  -- one store over the whole block; the accumulator it adds to is the buffer as the point before left it
  rw [View.canon_unit_zero hz]
  simp only [View.readAt_eq_ld, harg1.read_unread, harg2.read_unread, harg3.read_unread, harg4.read_unread,
    harg5.read_unread, harg9.read_unread, View.ld_unit_zero (S := S8192x48) hz, View.ld_unit_zero (S := S8x48) hz, View.ld_unit_zero (S := S1x8) hz,
    View.ld_unit_zero (S := S8x8) hz]

end Cert.KernelIdeal.AttnValue

end
-- ==== Proof.Pass1Payloads.lean ====
/-
  The first kernel's arithmetic at an index, on the extended reals.  With x_blk a block of 8192 rows of x:
  the V store's value at (r, j) is x_blk(r, ·) · Wv(j, ·) + bv(0, j); the value added into the scores buffer at
  (h, k) is Σ_r q(r, h) · k(r, k) with q, k the block's two other projections; the reset block is zero.
  (A change of float format is the identity on the extended reals; a matrix product into a zero accumulator is the
  plain sum over the contracted axis.)

  The two matrix products are first read at an index on their own: the product that contracts the second axis of
  both operands, (l · wᵀ)(r, j) = Σ_a l(r, a) · w(j, a), and the product that contracts the first axis of both,
  (lᵀ · m)(h, k) = Σ_t l(t, h) · m(t, k).  Each is the sum over the one-axis contraction index, re-indexed
  by that axis's coordinate, with the operand indices computed axis by axis.  A projection of the block is then the
  first product plus the bias row broadcast over the rows, and the scores update is the second product of two
  projections, added to the accumulator.
-/
import proofs.«160793_j13984413516170_1_alg».proof.Proof.Gen.KernelIdeal.Skeleton
import proofs.«160793_j13984413516170_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

set_option maxRecDepth 16384

noncomputable section

namespace Cert.KernelIdeal.AttnValue

open Cert.KernelIdeal Cert.KernelIdeal.Gen Cert.Attn
open Idealize.ShloMosaic Idealize.ShloMosaic.TcCoe Idealize.SL.Sem Idealize.ShloMosaic.ValueIdx
open Idealize.ShloMosaic.Pipeline (Dat)

/-! ## The product contracting the second axis of both operands: [8192, 48] · [8, 48]ᵀ -/

/-- The left operand's row is the result's row. -/
theorem lhs_proj_0 (i : S8192x8.Idx) (q : dot_S8192x48_S8x48_S8192x8_1_1_0_0_n_n.contr.Idx) :
    (dot_S8192x48_S8x48_S8192x8_1_1_0_0_n_n.lhsIdx i q 0).val = (i 0).val := by
  unfold DotDims.lhsIdx
  rw [dif_neg (show ¬(0 : Fin S8192x48.rank) ∈ dot_S8192x48_S8x48_S8192x8_1_1_0_0_n_n.lhsBatch by decide), dif_pos (show (0 : Fin S8192x48.rank) ∈ dot_S8192x48_S8x48_S8192x8_1_1_0_0_n_n.lhsNonContracting by decide)]
  rfl
/-- The left operand's column is the contraction coordinate. -/
theorem lhs_proj_1 (i : S8192x8.Idx) (q : dot_S8192x48_S8x48_S8192x8_1_1_0_0_n_n.contr.Idx) :
    (dot_S8192x48_S8x48_S8192x8_1_1_0_0_n_n.lhsIdx i q 1).val = (q ⟨0, by decide⟩).val :=
  dot_S8192x48_S8x48_S8192x8_1_1_0_0_n_n.lhsIdx_val_of_single rfl i q
/-- The right operand's row is the result's column. -/
theorem rhs_proj_0 (i : S8192x8.Idx) (q : dot_S8192x48_S8x48_S8192x8_1_1_0_0_n_n.contr.Idx) :
    (dot_S8192x48_S8x48_S8192x8_1_1_0_0_n_n.rhsIdx i q 0).val = (i 1).val := by
  unfold DotDims.rhsIdx
  rw [dif_neg (show ¬(0 : Fin S8x48.rank) ∈ dot_S8192x48_S8x48_S8192x8_1_1_0_0_n_n.rhsBatch by decide), dif_pos (show (0 : Fin S8x48.rank) ∈ dot_S8192x48_S8x48_S8192x8_1_1_0_0_n_n.rhsNonContracting by decide)]
  rfl
/-- The right operand's column is the contraction coordinate. -/
theorem rhs_proj_1 (i : S8192x8.Idx) (q : dot_S8192x48_S8x48_S8192x8_1_1_0_0_n_n.contr.Idx) :
    (dot_S8192x48_S8x48_S8192x8_1_1_0_0_n_n.rhsIdx i q 1).val = (q ⟨0, by decide⟩).val :=
  dot_S8192x48_S8x48_S8192x8_1_1_0_0_n_n.rhsIdx_val_of_single rfl i q

/-- (l · wᵀ)(r, j) = Σ_a l(r, a) · w(j, a), into the zero accumulator. -/
theorem matmul_proj_apply {φ₁ φ₂ : FTy} (l : FVec Ideal S8192x48 φ₁) (w : FVec Ideal S8x48 φ₂) (r : Fin 8192) (j : Fin 8) :
    matmul dot_S8192x48_S8x48_S8192x8_1_1_0_0_n_n none l w (constant (F := Ideal) S8192x8 .f32 0x00000000#32) (ix2 r j)
      = ∑ a : Fin 48, l (ix2 r a) * w (ix2 j a) := by
  simp only [matmul]
  rw [Ideal.matmul_constant_zero_apply, ← Equiv.sum_comp (ValueIdx.contrEquiv1 dot_S8192x48_S8x48_S8192x8_1_1_0_0_n_n 48 rfl rfl).symm]
  refine Finset.sum_congr rfl fun a _ => ?_
  have ha := ValueIdx.contrEquiv1_symm_val dot_S8192x48_S8x48_S8192x8_1_1_0_0_n_n 48 rfl rfl a
  have el : dot_S8192x48_S8x48_S8192x8_1_1_0_0_n_n.lhsIdx (ix2 r j) ((ValueIdx.contrEquiv1 dot_S8192x48_S8x48_S8192x8_1_1_0_0_n_n 48 rfl rfl).symm a) = ix2 r a := funext fun c => Fin.ext (by
    match c with
    | ⟨0, _⟩ => exact lhs_proj_0 _ _
    | ⟨1, _⟩ => exact (lhs_proj_1 _ _).trans ha)
  have er : dot_S8192x48_S8x48_S8192x8_1_1_0_0_n_n.rhsIdx (ix2 r j) ((ValueIdx.contrEquiv1 dot_S8192x48_S8x48_S8192x8_1_1_0_0_n_n 48 rfl rfl).symm a) = ix2 j a := funext fun c => Fin.ext (by
    match c with
    | ⟨0, _⟩ => exact rhs_proj_0 _ _
    | ⟨1, _⟩ => exact (rhs_proj_1 _ _).trans ha)
  rw [el, er]

/-! ## The product contracting the first axis of both operands: [8192, 8]ᵀ · [8192, 8] -/

/-- The left operand's row is the contraction coordinate. -/
theorem lhs_gram_0 (i : S8x8.Idx) (q : dot_S8192x8_S8192x8_S8x8_0_0_1_1_n_n.contr.Idx) :
    (dot_S8192x8_S8192x8_S8x8_0_0_1_1_n_n.lhsIdx i q 0).val = (q ⟨0, by decide⟩).val :=
  dot_S8192x8_S8192x8_S8x8_0_0_1_1_n_n.lhsIdx_val_of_single rfl i q
/-- The left operand's column is the result's row. -/
theorem lhs_gram_1 (i : S8x8.Idx) (q : dot_S8192x8_S8192x8_S8x8_0_0_1_1_n_n.contr.Idx) :
    (dot_S8192x8_S8192x8_S8x8_0_0_1_1_n_n.lhsIdx i q 1).val = (i 0).val := by
  unfold DotDims.lhsIdx
  rw [dif_neg (show ¬(1 : Fin S8192x8.rank) ∈ dot_S8192x8_S8192x8_S8x8_0_0_1_1_n_n.lhsBatch by decide), dif_pos (show (1 : Fin S8192x8.rank) ∈ dot_S8192x8_S8192x8_S8x8_0_0_1_1_n_n.lhsNonContracting by decide)]
  rfl
/-- The right operand's row is the contraction coordinate. -/
theorem rhs_gram_0 (i : S8x8.Idx) (q : dot_S8192x8_S8192x8_S8x8_0_0_1_1_n_n.contr.Idx) :
    (dot_S8192x8_S8192x8_S8x8_0_0_1_1_n_n.rhsIdx i q 0).val = (q ⟨0, by decide⟩).val :=
  dot_S8192x8_S8192x8_S8x8_0_0_1_1_n_n.rhsIdx_val_of_single rfl i q
/-- The right operand's column is the result's column. -/
theorem rhs_gram_1 (i : S8x8.Idx) (q : dot_S8192x8_S8192x8_S8x8_0_0_1_1_n_n.contr.Idx) :
    (dot_S8192x8_S8192x8_S8x8_0_0_1_1_n_n.rhsIdx i q 1).val = (i 1).val := by
  unfold DotDims.rhsIdx
  rw [dif_neg (show ¬(1 : Fin S8192x8.rank) ∈ dot_S8192x8_S8192x8_S8x8_0_0_1_1_n_n.rhsBatch by decide), dif_pos (show (1 : Fin S8192x8.rank) ∈ dot_S8192x8_S8192x8_S8x8_0_0_1_1_n_n.rhsNonContracting by decide)]
  rfl

/-- (lᵀ · m)(h, k) = Σ_t l(t, h) · m(t, k), into the zero accumulator. -/
theorem matmul_gram_apply {φ₁ φ₂ : FTy} (l : FVec Ideal S8192x8 φ₁) (m : FVec Ideal S8192x8 φ₂) (h k : Fin 8) :
    matmul dot_S8192x8_S8192x8_S8x8_0_0_1_1_n_n none l m (constant (F := Ideal) S8x8 .f32 0x00000000#32) (ix2 h k)
      = ∑ t : Fin 8192, l (ix2 t h) * m (ix2 t k) := by
  simp only [matmul]
  rw [Ideal.matmul_constant_zero_apply, ← Equiv.sum_comp (ValueIdx.contrEquiv1 dot_S8192x8_S8192x8_S8x8_0_0_1_1_n_n 8192 rfl rfl).symm]
  refine Finset.sum_congr rfl fun t _ => ?_
  have ht := ValueIdx.contrEquiv1_symm_val dot_S8192x8_S8192x8_S8x8_0_0_1_1_n_n 8192 rfl rfl t
  have el : dot_S8192x8_S8192x8_S8x8_0_0_1_1_n_n.lhsIdx (ix2 h k) ((ValueIdx.contrEquiv1 dot_S8192x8_S8192x8_S8x8_0_0_1_1_n_n 8192 rfl rfl).symm t) = ix2 t h := funext fun c => Fin.ext (by
    match c with
    | ⟨0, _⟩ => exact (lhs_gram_0 _ _).trans ht
    | ⟨1, _⟩ => exact lhs_gram_1 _ _)
  have er : dot_S8192x8_S8192x8_S8x8_0_0_1_1_n_n.rhsIdx (ix2 h k) ((ValueIdx.contrEquiv1 dot_S8192x8_S8192x8_S8x8_0_0_1_1_n_n 8192 rfl rfl).symm t) = ix2 t k := funext fun c => Fin.ext (by
    match c with
    | ⟨0, _⟩ => exact (rhs_gram_0 _ _).trans ht
    | ⟨1, _⟩ => exact rhs_gram_1 _ _)
  rw [el, er]

/-! ## A projection of the block, and the payloads -/

/-- The bias row, cast to its own shape and broadcast over the rows, reads its entry of the column. -/
theorem bias_apply (b : Vec Ideal S1x8 .f32) (r : Fin 8192) (j : Fin 8) :
    broadcastTo S8192x8 (shapeCast S1x8 b shapeCasts_S1x8_S1x8) broadcasts_S1x8_S8192x8 (ix2 r j) = b (ix2 0 j) := by
  rw [shapeCast_self]
  exact broadcastTo_1b_ab_apply b broadcasts_S1x8_S8192x8 r j

/-- A projection of the block as the kernel computes it: x_blk(r, ·) · W(j, ·) + b(0, j). -/
theorem proj_apply (x : Vec Ideal S8192x48 .f32) (W : Vec Ideal S8x48 .f32) (b : Vec Ideal S1x8 .f32) (r : Fin 8192) (j : Fin 8) :
    addf (matmul dot_S8192x48_S8x48_S8192x8_1_1_0_0_n_n none (truncf .bf16 x bitsLt_bf16_f32) (truncf .bf16 W bitsLt_bf16_f32) (constant (F := Ideal) S8192x8 .f32 0x00000000#32))
        (broadcastTo S8192x8 (shapeCast S1x8 b shapeCasts_S1x8_S1x8) broadcasts_S1x8_S8192x8) (ix2 r j)
      = (∑ a : Fin 48, x (ix2 r a) * W (ix2 j a)) + b (ix2 0 j) := by
  refine (addf_apply _ _ _).trans ?_
  rw [matmul_proj_apply, bias_apply]
  rfl

/-- The zero block. -/
theorem pay1_apply (h k : Fin 8) : k0_pay1 (F := Ideal) (ix2 h k) = 0 := by
  unfold k0_pay1
  exact Ideal.ofBits_zero_f32

/-- A row of the block's projection: x_blk(r, ·) · W(j, ·) + b(0, j). -/
theorem pay3_apply (x : Vec Ideal S8192x48 .f32) (W : Vec Ideal S8x48 .f32) (b : Vec Ideal S1x8 .f32) (r : Fin 8192) (j : Fin 8) :
    k0_pay3 (F := Ideal) x W b (ix2 r j) = (∑ a : Fin 48, x (ix2 r a) * W (ix2 j a)) + b (ix2 0 j) := by
  unfold k0_pay3 k0_pay2
  exact proj_apply x W b r j

/-- The accumulator plus the block's partial product (Q_blkᵀ K_blk)(h, k), Q and K the block's projections. -/
theorem pay4_apply (x : Vec Ideal S8192x48 .f32) (Wq Wk : Vec Ideal S8x48 .f32) (bq bk : Vec Ideal S1x8 .f32) (acc : Vec Ideal S8x8 .f32) (h k : Fin 8) :
    k0_pay4 (F := Ideal) x Wq Wk bq bk acc (ix2 h k)
      = acc (ix2 h k) + ∑ r : Fin 8192, ((∑ a : Fin 48, x (ix2 r a) * Wq (ix2 h a)) + bq (ix2 0 h)) * ((∑ a : Fin 48, x (ix2 r a) * Wk (ix2 k a)) + bk (ix2 0 k)) := by
  unfold k0_pay4 k0_pay2
  refine (addf_apply _ _ _).trans ?_
  refine congrArg₂ (· + ·) (congrFun (shapeCast_self acc shapeCasts_S8x8_S8x8) (ix2 h k)) ?_
  refine (matmul_gram_apply _ _ h k).trans (Finset.sum_congr rfl fun r _ => ?_)
  exact congrArg₂ (· * ·) (proj_apply x Wq bq r h) (proj_apply x Wk bk r k)

end Cert.KernelIdeal.AttnValue

end
-- ==== Proof.Pass1Value.lean ====
/-
  What the first region leaves in its two result arrays, for any contents V of the arrays at its entry:
  the V array is the projection of all N rows (each block of 8192 rows written back by its own point), and the
  scores array is QᵀK over all N rows: the buffer holds after point t the sum of the partial products of blocks
  0 … t, is written back after the last point, and the 128 block sums are the one sum over the rows.

  The steps.  Row r of the block of x held at point t is row 8192·t + r of x, and the three weight matrices and the
  three bias rows are held whole at every point; so the V block stored at point t is, at (r, j), the projection of
  row 8192·t + r at column j, and index (n, j) of the V array lies in the block of point n / 8192, at row n mod 8192.
  With share(t)(h, k) = Σ_{r < 8192} Q(8192·t + r, h) · K(8192·t + r, k), the scores buffer holds share(0) after
  point 0 (zero plus the share) and what it held plus share(n + 1) after point n + 1: by induction on the point,
  Σ_{s ≤ n} share(s) after point n.  The one write-back, after point 127, has the whole 8 × 8 array as its block, and
  Σ_{s < 128} share(s) is the sum over all N rows.
-/
import proofs.«160793_j13984413516170_1_alg».proof.Proof.Gen.KernelIdeal.Frame
import proofs.«160793_j13984413516170_1_alg».proof.Proof.Spec
import proofs.«160793_j13984413516170_1_alg».proof.Proof.Pass1Pieces
import proofs.«160793_j13984413516170_1_alg».proof.Proof.Pass1Payloads
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

set_option maxRecDepth 16384

noncomputable section

namespace Cert.KernelIdeal.AttnValue

open Cert.KernelIdeal Cert.KernelIdeal.Gen Cert.Attn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The first region's input arrays at their literal types. -/
abbrev xIn (c : Dev nD) : FVec Ideal ⟨2, ![1048576, 48]⟩ .f32 := V c main_arg0
abbrev wqIn (c : Dev nD) : FVec Ideal ⟨2, ![8, 48]⟩ .f32 := V c main_arg3
abbrev wkIn (c : Dev nD) : FVec Ideal ⟨2, ![8, 48]⟩ .f32 := V c main_arg1
abbrev wvIn (c : Dev nD) : FVec Ideal ⟨2, ![8, 48]⟩ .f32 := V c main_arg5
/-- The biases as the region finds them: rows of [1, 8] arrays. -/
abbrev bqIn (c : Dev nD) : Fin 8 → EReal := fun j => (V c main_v0 : FVec Ideal ⟨2, ![1, 8]⟩ .f32) (ix2 0 j)
abbrev bkIn (c : Dev nD) : Fin 8 → EReal := fun j => (V c main_v1 : FVec Ideal ⟨2, ![1, 8]⟩ .f32) (ix2 0 j)
abbrev bvIn (c : Dev nD) : Fin 8 → EReal := fun j => (V c main_v2 : FVec Ideal ⟨2, ![1, 8]⟩ .f32) (ix2 0 j)

/-- A point of the grid as a block number below 128. -/
abbrev pt (t : Fin cfg0.N) : Fin 128 := ⟨t.val, lt_of_lt_of_eq t.isLt N_0⟩

/-- The blocks the body holds at point `t`, at their literal types: the rows of x, then each weight matrix and bias row. -/
abbrev xblk (c : Dev nD) (t : Fin cfg0.N) : Vec Ideal S8192x48 .f32 := iblk0 V c 0 t
abbrev wqblk (c : Dev nD) (t : Fin cfg0.N) : Vec Ideal S8x48 .f32 := iblk0 V c 1 t
abbrev bqblk (c : Dev nD) (t : Fin cfg0.N) : Vec Ideal S1x8 .f32 := iblk0 V c 2 t
abbrev wkblk (c : Dev nD) (t : Fin cfg0.N) : Vec Ideal S8x48 .f32 := iblk0 V c 3 t
abbrev bkblk (c : Dev nD) (t : Fin cfg0.N) : Vec Ideal S1x8 .f32 := iblk0 V c 4 t
abbrev wvblk (c : Dev nD) (t : Fin cfg0.N) : Vec Ideal S8x48 .f32 := iblk0 V c 5 t
abbrev bvblk (c : Dev nD) (t : Fin cfg0.N) : Vec Ideal S1x8 .f32 := iblk0 V c 6 t

/-- The block indices at every point: the x window and the V window move with the point along the rows; every other
    window stays at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = 0 ∧ win0_8.index t (1 : Fin 2) = 0 :=
  (by decide +kernel : ∀ t : Fin grid0.N, _)

/-- Row `r` of the block of x at point `t` is row 8192·t + r of x. -/
theorem xblk_apply (c : Dev nD) (t : Fin cfg0.N) (r : Fin 8192) (a : Fin 48) :
    xblk V c t (ix2 r a) = xIn V c (ix2 (rowOf (pt t) r) a) := by
  obtain ⟨e0, e1, -⟩ := idx_facts t
  show iblk0 V c 0 t (ix2 r a) = _
  unfold iblk0
  rw [View.read_apply]
  show V c main_arg0 _ = V c main_arg0 _
  congr 1
  funext b
  apply Fin.ext
  match b with
  | ⟨0, _⟩ => show win0_0.index t (0 : Fin 2) * 8192 + 1 * r.val = t.val * 8192 + r.val; rw [e0]; omega
  | ⟨1, _⟩ => show win0_0.index t (1 : Fin 2) * 48 + 1 * a.val = a.val; rw [e1]; omega

/-- The weight matrices and the bias rows are held whole at every point. -/
theorem wqblk_apply (c : Dev nD) (t : Fin cfg0.N) (j : Fin 8) (a : Fin 48) :
    wqblk V c t (ix2 j a) = wqIn V c (ix2 j a) := by
  obtain ⟨-, -, e0, e1, -⟩ := idx_facts t
  show iblk0 V c 1 t (ix2 j a) = _
  unfold iblk0
  rw [View.read_apply]
  show V c main_arg3 _ = V c main_arg3 _
  congr 1
  funext b
  apply Fin.ext
  match b with
  | ⟨0, _⟩ => show win0_1.index t (0 : Fin 2) * 8 + 1 * j.val = j.val; rw [e0]; omega
  | ⟨1, _⟩ => show win0_1.index t (1 : Fin 2) * 48 + 1 * a.val = a.val; rw [e1]; omega

theorem bqblk_apply (c : Dev nD) (t : Fin cfg0.N) (j : Fin 8) :
    bqblk V c t (ix2 0 j) = bqIn V c j := by
  obtain ⟨-, -, -, -, e0, e1, -⟩ := idx_facts t
  show iblk0 V c 2 t (ix2 0 j) = _
  unfold iblk0
  rw [View.read_apply]
  show V c main_v0 _ = V c main_v0 _
  congr 1
  funext b
  apply Fin.ext
  match b with
  | ⟨0, _⟩ => show win0_2.index t (0 : Fin 2) * 1 + 1 * 0 = 0; rw [e0]
  | ⟨1, _⟩ => show win0_2.index t (1 : Fin 2) * 8 + 1 * j.val = j.val; rw [e1]; omega

theorem wkblk_apply (c : Dev nD) (t : Fin cfg0.N) (j : Fin 8) (a : Fin 48) :
    wkblk V c t (ix2 j a) = wkIn V c (ix2 j a) := by
  obtain ⟨-, -, -, -, -, -, e0, e1, -⟩ := idx_facts t
  show iblk0 V c 3 t (ix2 j a) = _
  unfold iblk0
  rw [View.read_apply]
  show V c main_arg1 _ = V c main_arg1 _
  congr 1
  funext b
  apply Fin.ext
  match b with
  | ⟨0, _⟩ => show win0_3.index t (0 : Fin 2) * 8 + 1 * j.val = j.val; rw [e0]; omega
  | ⟨1, _⟩ => show win0_3.index t (1 : Fin 2) * 48 + 1 * a.val = a.val; rw [e1]; omega

theorem bkblk_apply (c : Dev nD) (t : Fin cfg0.N) (j : Fin 8) :
    bkblk V c t (ix2 0 j) = bkIn V c j := by
  obtain ⟨-, -, -, -, -, -, -, -, e0, e1, -⟩ := idx_facts t
  show iblk0 V c 4 t (ix2 0 j) = _
  unfold iblk0
  rw [View.read_apply]
  show V c main_v1 _ = V c main_v1 _
  congr 1
  funext b
  apply Fin.ext
  match b with
  | ⟨0, _⟩ => show win0_4.index t (0 : Fin 2) * 1 + 1 * 0 = 0; rw [e0]
  | ⟨1, _⟩ => show win0_4.index t (1 : Fin 2) * 8 + 1 * j.val = j.val; rw [e1]; omega

theorem wvblk_apply (c : Dev nD) (t : Fin cfg0.N) (j : Fin 8) (a : Fin 48) :
    wvblk V c t (ix2 j a) = wvIn V c (ix2 j a) := by
  obtain ⟨-, -, -, -, -, -, -, -, -, -, e0, e1, -⟩ := idx_facts t
  show iblk0 V c 5 t (ix2 j a) = _
  unfold iblk0
  rw [View.read_apply]
  show V c main_arg5 _ = V c main_arg5 _
  congr 1
  funext b
  apply Fin.ext
  match b with
  | ⟨0, _⟩ => show win0_5.index t (0 : Fin 2) * 8 + 1 * j.val = j.val; rw [e0]; omega
  | ⟨1, _⟩ => show win0_5.index t (1 : Fin 2) * 48 + 1 * a.val = a.val; rw [e1]; omega

theorem bvblk_apply (c : Dev nD) (t : Fin cfg0.N) (j : Fin 8) :
    bvblk V c t (ix2 0 j) = bvIn V c j := by
  obtain ⟨-, -, -, -, -, -, -, -, -, -, -, -, e0, e1, -⟩ := idx_facts t
  show iblk0 V c 6 t (ix2 0 j) = _
  unfold iblk0
  rw [View.read_apply]
  show V c main_v2 _ = V c main_v2 _
  congr 1
  funext b
  apply Fin.ext
  match b with
  | ⟨0, _⟩ => show win0_6.index t (0 : Fin 2) * 1 + 1 * 0 = 0; rw [e0]
  | ⟨1, _⟩ => show win0_6.index t (1 : Fin 2) * 8 + 1 * j.val = j.val; rw [e1]; omega

/-- What the V window's buffer holds after any point: the block's rows projected. -/
theorem out7_eq (c : Dev nD) (t : Fin cfg0.N) :
    (outsAt0 V c t.val t.isLt).1 = k0_pay3 (F := Ideal) (xblk V c t) (wvblk V c t) (bvblk V c t) := by
  by_cases h0 : t.val % 128 = 0
  · rw [outsAt0_A V c t h0]
    dsimp only
    exact out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (xblk V c t) (wqblk V c t) (bqblk V c t) (wkblk V c t) (bkblk V c t) (wvblk V c t) (bvblk V c t)
  · rw [outsAt0_B V c t h0]
    dsimp only
    exact out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (xblk V c t) (wqblk V c t) (bqblk V c t) (wkblk V c t) (bkblk V c t) (wvblk V c t) (bvblk V c t) (outsAt0 V c (t.val - 1) (Nat.lt_of_le_of_lt (Nat.sub_le _ _) t.isLt)).2

/-- A row of a block's projection is the row of the whole array's projection, when the block's weights and bias
    are the arrays'. -/
theorem row_blk (c : Dev nD) (t : Fin cfg0.N) (W : Vec Ideal S8x48 .f32) (Win : FVec Ideal ⟨2, ![8, 48]⟩ .f32)
    (hW : ∀ (j : Fin 8) (a : Fin 48), W (ix2 j a) = Win (ix2 j a))
    (b : Vec Ideal S1x8 .f32) (β : Fin 8 → EReal) (hb : ∀ j : Fin 8, b (ix2 0 j) = β j) (r : Fin 8192) (j : Fin 8) :
    (∑ a : Fin 48, xblk V c t (ix2 r a) * W (ix2 j a)) + b (ix2 0 j) = projAt (xIn V c) Win β (rowOf (pt t) r) j := by
  unfold projAt
  rw [hb j]
  refine congrArg (· + β j) ?_
  refine Finset.sum_congr rfl fun a _ => ?_
  rw [xblk_apply V c t r a, hW j a]

/-- The same at an index, over the region's input arrays. -/
theorem out7_apply (c : Dev nD) (t : Fin cfg0.N) (r : Fin 8192) (j : Fin 8) :
    (outsAt0 V c t.val t.isLt).1 (ix2 r j) = projAt (xIn V c) (wvIn V c) (bvIn V c) (rowOf (pt t) r) j := by
  rw [out7_eq V c t]
  exact (pay3_apply (xblk V c t) (wvblk V c t) (bvblk V c t) r j).trans
    (row_blk V c t (wvblk V c t) (wvIn V c) (wvblk_apply V c t) (bvblk V c t) (bvIn V c) (bvblk_apply V c t) r j)

/-- The V window's buffer after point `t` at an index, against the array index it is written back to. -/
theorem out7_at (c : Dev nD) (t : Fin cfg0.N) (y : S8192x8.Idx) (i : S1048576x8.Idx)
    (h0 : (i 0).val = t.val * 8192 + (y 0).val) (h1 : (i 1).val = (y 1).val) :
    (outsAt0 V c t.val t.isLt).1 y = proj (xIn V c) (wvIn V c) (bvIn V c) i := by
  obtain ⟨r, j, rfl⟩ : ∃ (r : Fin 8192) (j : Fin 8), y = ix2 r j := ⟨y 0, y 1, eq_ix2 y⟩
  obtain ⟨n, j', rfl⟩ : ∃ (n : Fin 1048576) (j' : Fin 8), i = ix2 n j' := ⟨i 0, i 1, eq_ix2 i⟩
  obtain rfl : n = rowOf (pt t) r := Fin.ext h0
  obtain rfl : j' = j := Fin.ext h1
  rw [proj_ix2]
  exact out7_apply V c t r _

/-- What point `t` writes back to the V array is its block of any array that its buffer reads as, index by index. -/
theorem flushed7_of (c : Dev nD) (t : Fin cfg0.N) (G : FVec Ideal ⟨2, ![1048576, 8]⟩ .f32)
    (hG : ∀ (y : S8192x8.Idx) (i : S1048576x8.Idx), (i 0).val = t.val * 8192 + (y 0).val → (i 1).val = (y 1).val →
      (outsAt0 V c t.val t.isLt).1 y = G i) :
    (dat0 (F := Ideal) V c).flushed 7 t = ((cfg0.win 7).blk t).view.read (Elt Ideal) G := by
  obtain ⟨-, -, -, -, -, -, -, -, -, -, -, -, -, -, e0, e1, -⟩ := idx_facts t
  show (cfg0.win 7).cut (grid0.coords t) ((dat0 (F := Ideal) V c).after 7 t) = _
  rw [after0_7]
  funext y
  show (outsAt0 V c t.val t.isLt).1 y = G (((cfg0.win 7).blk t).view.emb y)
  refine hG y _ ?_ ?_
  · show win0_7.index t (0 : Fin 2) * 8192 + 1 * (y 0).val = t.val * 8192 + (y 0).val
    rw [e0]; omega
  · show win0_7.index t (1 : Fin 2) * 8 + 1 * (y 1).val = (y 1).val
    rw [e1]; omega

/-- What point `t` writes back to the V array is its block of the projection of all rows. -/
theorem flushed7_eq (c : Dev nD) (t : Fin cfg0.N) :
    (dat0 (F := Ideal) V c).flushed 7 t
      = ((cfg0.win 7).blk t).view.read (Elt Ideal) (proj (xIn V c) (wvIn V c) (bvIn V c)) :=
  flushed7_of V c t (proj (xIn V c) (wvIn V c) (bvIn V c)) (out7_at V c t)

/-- An index of the V array is in point `t`'s block iff each coordinate is in the block's range on its axis. -/
theorem mem_blk7 (t : Fin cfg0.N) (i : S1048576x8.Idx) :
    i ∈ ((cfg0.win 7).blk t).view.set ↔ ∀ a : Fin 2, win0_7.index t a * S8192x8.size a ≤ (i a).val ∧ (i a).val < win0_7.index t a * S8192x8.size a + S8192x8.size a := by
  show i ∈ ((View.whole main_v4_0).slice (win0_7.rect t)).set ↔ _
  rw [View.set_slice_whole, Rect.mem_set_unit]
  exact Iff.rfl

/-- Row `n` of the V array lies in the block of point `n / 8192`. -/
theorem cover7 (i : S1048576x8.Idx) :
    ∃ t : Fin cfg0.N, (cfg0.win 7).flush t = true ∧ i ∈ ((cfg0.win 7).blk t).view.set := by
  have hi0 : (i 0).val < 1048576 := (i 0).isLt
  have hi1 : (i 1).val < 8 := (i 1).isLt
  have hN : cfg0.N = 128 := N_0
  have ht : (i 0).val / 8192 < cfg0.N := by rw [hN]; omega
  refine ⟨⟨(i 0).val / 8192, ht⟩, flush0_7 _, ?_⟩
  obtain ⟨-, -, -, -, -, -, -, -, -, -, -, -, -, -, e0, e1, -⟩ := idx_facts ⟨(i 0).val / 8192, ht⟩
  rw [mem_blk7]
  intro a
  match a with
  | ⟨0, _⟩ =>
    show win0_7.index ⟨(i 0).val / 8192, ht⟩ (0 : Fin 2) * 8192 ≤ (i 0).val ∧ (i 0).val < win0_7.index ⟨(i 0).val / 8192, ht⟩ (0 : Fin 2) * 8192 + 8192
    rw [e0]; dsimp only; omega
  | ⟨1, _⟩ =>
    show win0_7.index ⟨(i 0).val / 8192, ht⟩ (1 : Fin 2) * 8 ≤ (i 1).val ∧ (i 1).val < win0_7.index ⟨(i 0).val / 8192, ht⟩ (1 : Fin 2) * 8 + 8
    rw [e1]; omega

/-- The V array after the region. -/
theorem arr7 (c : Dev nD) : (dat0 (F := Ideal) V c).arrAt 7 cfg0.N = proj (xIn V c) (wvIn V c) (bvIn V c) :=
  (dat0 (F := Ideal) V c).arrAt_eq_of_cover 7 (proj (xIn V c) (wvIn V c) (bvIn V c))
    (fun t _ => flushed7_eq V c t) cover7

/-! ## The scores window: one block, carried from point to point -/

/-- Block `t`'s share of the scores at (h, k): the product of its rows' two projections, summed over the block. -/
def part (c : Dev nD) (t : Fin 128) (h k : Fin 8) : EReal :=
  ∑ r : Fin 8192, projAt (xIn V c) (wqIn V c) (bqIn V c) (rowOf t r) h * projAt (xIn V c) (wkIn V c) (bkIn V c) (rowOf t r) k

/-- The body's update of the scores buffer at a point, over the region's input arrays. -/
theorem pay4_blk (c : Dev nD) (t : Fin cfg0.N) (acc : Vec Ideal S8x8 .f32) (h k : Fin 8) :
    k0_pay4 (F := Ideal) (xblk V c t) (wqblk V c t) (wkblk V c t) (bqblk V c t) (bkblk V c t) acc (ix2 h k)
      = acc (ix2 h k) + part V c (pt t) h k := by
  refine (pay4_apply (xblk V c t) (wqblk V c t) (wkblk V c t) (bqblk V c t) (bkblk V c t) acc h k).trans ?_
  unfold part
  refine congrArg (acc (ix2 h k) + ·) ?_
  refine Finset.sum_congr rfl fun r _ => ?_
  exact congrArg₂ (· * ·)
    (row_blk V c t (wqblk V c t) (wqIn V c) (wqblk_apply V c t) (bqblk V c t) (bqIn V c) (bqblk_apply V c t) r h)
    (row_blk V c t (wkblk V c t) (wkIn V c) (wkblk_apply V c t) (bkblk V c t) (bkIn V c) (bkblk_apply V c t) r k)

/-- At the first point the buffer is zeroed and then updated. -/
theorem out8_eq_A (c : Dev nD) (t : Fin cfg0.N) (h0 : t.val % 128 = 0) :
    (outsAt0 V c t.val t.isLt).2
      = k0_pay4 (F := Ideal) (xblk V c t) (wqblk V c t) (wkblk V c t) (bqblk V c t) (bkblk V c t) (k0_pay1 (F := Ideal)) := by
  rw [outsAt0_A V c t h0]
  dsimp only
  exact out_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (xblk V c t) (wqblk V c t) (bqblk V c t) (wkblk V c t) (bkblk V c t) (wvblk V c t) (bvblk V c t)

/-- At every later point what the point before left is updated. -/
theorem out8_eq_B (c : Dev nD) (t : Fin cfg0.N) (h0 : ¬t.val % 128 = 0) :
    (outsAt0 V c t.val t.isLt).2
      = k0_pay4 (F := Ideal) (xblk V c t) (wqblk V c t) (wkblk V c t) (bqblk V c t) (bkblk V c t)
          (outsAt0 V c (t.val - 1) (Nat.lt_of_le_of_lt (Nat.sub_le _ _) t.isLt)).2 := by
  rw [outsAt0_B V c t h0]
  dsimp only
  exact out_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (xblk V c t) (wqblk V c t) (bqblk V c t) (wkblk V c t) (bkblk V c t) (wvblk V c t) (bvblk V c t) (outsAt0 V c (t.val - 1) (Nat.lt_of_le_of_lt (Nat.sub_le _ _) t.isLt)).2

/-- Block `s`'s share for any natural `s` (nothing past the grid). -/
def partN (c : Dev nD) (s : ℕ) (h k : Fin 8) : EReal :=
  if hs : s < 128 then part V c ⟨s, hs⟩ h k else 0

/-- After point `n` the scores buffer holds the sum of the shares of blocks 0 … n. -/
theorem out8_sum (c : Dev nD) : ∀ (n : ℕ) (hn : n < cfg0.N) (h k : Fin 8),
    (outsAt0 V c n hn).2 (ix2 h k) = ∑ s ∈ Finset.range (n + 1), partN V c s h k
  | 0, hn, h, k => by
    refine (congrFun (out8_eq_A V c ⟨0, hn⟩ rfl) (ix2 h k)).trans ?_
    refine (pay4_blk V c ⟨0, hn⟩ (k0_pay1 (F := Ideal)) h k).trans ?_
    rw [pay1_apply h k, zero_add, Finset.sum_range_one]
    unfold partN
    rw [dif_pos (by omega : 0 < 128)]
  | n + 1, hn, h, k => by
    have hN : cfg0.N = 128 := N_0
    have hB : ¬(⟨n + 1, hn⟩ : Fin cfg0.N).val % 128 = 0 := by dsimp only; omega
    refine (congrFun (out8_eq_B V c ⟨n + 1, hn⟩ hB) (ix2 h k)).trans ?_
    refine (pay4_blk V c ⟨n + 1, hn⟩ _ h k).trans ?_
    rw [Finset.sum_range_succ _ (n + 1)]
    refine congrArg₂ (· + ·) (out8_sum c n (Nat.lt_of_succ_lt hn) h k) ?_
    unfold partN
    rw [dif_pos (by omega : n + 1 < 128)]

/-- After the last point it holds the scores of all rows: the 128 shares are the one sum over the rows. -/
theorem out8_last (c : Dev nD) (t : Fin cfg0.N) (h127 : t.val = 127) (h k : Fin 8) :
    (outsAt0 V c t.val t.isLt).2 (ix2 h k)
      = gramAt (proj (xIn V c) (wqIn V c) (bqIn V c)) (proj (xIn V c) (wkIn V c) (bkIn V c)) h k := by
  refine (out8_sum V c t.val t.isLt h k).trans ?_
  rw [h127, show (127 : ℕ) + 1 = 128 from rfl, Finset.sum_range]
  unfold gramAt
  refine Eq.trans ?_ (sum_blocks (fun n => proj (xIn V c) (wqIn V c) (bqIn V c) (ix2 n h) * proj (xIn V c) (wkIn V c) (bkIn V c) (ix2 n k)))
  refine Finset.sum_congr rfl fun s _ => ?_
  unfold partN
  rw [dif_pos s.isLt]
  unfold part
  refine Finset.sum_congr rfl fun r _ => ?_
  rfl

/-- The same against the array index the last point writes it back to. -/
theorem out8_at (c : Dev nD) (t : Fin cfg0.N) (h127 : t.val = 127) (y i : S8x8.Idx)
    (h0 : (i 0).val = (y 0).val) (h1 : (i 1).val = (y 1).val) :
    (outsAt0 V c t.val t.isLt).2 y
      = gram (proj (xIn V c) (wqIn V c) (bqIn V c)) (proj (xIn V c) (wkIn V c) (bkIn V c)) i := by
  obtain ⟨h, k, rfl⟩ : ∃ (h k : Fin 8), y = ix2 h k := ⟨y 0, y 1, eq_ix2 y⟩
  obtain ⟨h', k', rfl⟩ : ∃ (h' k' : Fin 8), i = ix2 h' k' := ⟨i 0, i 1, eq_ix2 i⟩
  obtain rfl : h' = h := Fin.ext h0
  obtain rfl : k' = k := Fin.ext h1
  rw [gram_ix2]
  exact out8_last V c t h127 h' k'

/-- What a point writes back to the scores array is its block of any array that its buffer reads as, index by index. -/
theorem flushed8_of (c : Dev nD) (t : Fin cfg0.N) (G : FVec Ideal ⟨2, ![8, 8]⟩ .f32)
    (hG : ∀ (y i : S8x8.Idx), (i 0).val = (y 0).val → (i 1).val = (y 1).val → (outsAt0 V c t.val t.isLt).2 y = G i) :
    (dat0 (F := Ideal) V c).flushed 8 t = ((cfg0.win 8).blk t).view.read (Elt Ideal) G := by
  obtain ⟨-, -, -, -, -, -, -, -, -, -, -, -, -, -, -, -, e0, e1⟩ := idx_facts t
  show (cfg0.win 8).cut (grid0.coords t) ((dat0 (F := Ideal) V c).after 8 t) = _
  rw [after0_8]
  funext y
  show (outsAt0 V c t.val t.isLt).2 y = G (((cfg0.win 8).blk t).view.emb y)
  refine hG y _ ?_ ?_
  · show win0_8.index t (0 : Fin 2) * 8 + 1 * (y 0).val = (y 0).val
    rw [e0]; omega
  · show win0_8.index t (1 : Fin 2) * 8 + 1 * (y 1).val = (y 1).val
    rw [e1]; omega

/-- The one write-back of the scores array, after the last point, writes the scores of all rows. -/
theorem flushed8_eq (c : Dev nD) (t : Fin cfg0.N) (hf : (cfg0.win 8).flush t = true) :
    (dat0 (F := Ideal) V c).flushed 8 t
      = ((cfg0.win 8).blk t).view.read (Elt Ideal)
          (gram (proj (xIn V c) (wqIn V c) (bqIn V c)) (proj (xIn V c) (wkIn V c) (bkIn V c))) := by
  have hN : cfg0.N = 128 := N_0
  have h127 : t.val = 127 := by have := (flush0_8 t).mp hf; have := t.isLt; omega
  exact flushed8_of V c t _ (out8_at V c t h127)

/-- An index of the scores array is in point `t`'s block iff each coordinate is in the block's range on its axis. -/
theorem mem_blk8 (t : Fin cfg0.N) (i : S8x8.Idx) :
    i ∈ ((cfg0.win 8).blk t).view.set ↔ ∀ a : Fin 2, win0_8.index t a * S8x8.size a ≤ (i a).val ∧ (i a).val < win0_8.index t a * S8x8.size a + S8x8.size a := by
  show i ∈ ((View.whole main_v4_1).slice (win0_8.rect t)).set ↔ _
  rw [View.set_slice_whole, Rect.mem_set_unit]
  exact Iff.rfl

/-- The last point's block is the whole scores array. -/
theorem cover8 (i : S8x8.Idx) :
    ∃ t : Fin cfg0.N, (cfg0.win 8).flush t = true ∧ i ∈ ((cfg0.win 8).blk t).view.set := by
  have hi0 : (i 0).val < 8 := (i 0).isLt
  have hi1 : (i 1).val < 8 := (i 1).isLt
  have hN : cfg0.N = 128 := N_0
  have ht : 127 < cfg0.N := by rw [hN]; omega
  refine ⟨⟨127, ht⟩, (flush0_8 _).mpr rfl, ?_⟩
  obtain ⟨-, -, -, -, -, -, -, -, -, -, -, -, -, -, -, -, e0, e1⟩ := idx_facts ⟨127, ht⟩
  rw [mem_blk8]
  intro a
  match a with
  | ⟨0, _⟩ =>
    show win0_8.index ⟨127, ht⟩ (0 : Fin 2) * 8 ≤ (i 0).val ∧ (i 0).val < win0_8.index ⟨127, ht⟩ (0 : Fin 2) * 8 + 8
    rw [e0]; omega
  | ⟨1, _⟩ =>
    show win0_8.index ⟨127, ht⟩ (1 : Fin 2) * 8 ≤ (i 1).val ∧ (i 1).val < win0_8.index ⟨127, ht⟩ (1 : Fin 2) * 8 + 8
    rw [e1]; omega

/-- The scores array after the region. -/
theorem arr8 (c : Dev nD) : (dat0 (F := Ideal) V c).arrAt 8 cfg0.N
    = gram (proj (xIn V c) (wqIn V c) (bqIn V c)) (proj (xIn V c) (wkIn V c) (bkIn V c)) :=
  (dat0 (F := Ideal) V c).arrAt_eq_of_cover 8
    (gram (proj (xIn V c) (wqIn V c) (bqIn V c)) (proj (xIn V c) (wkIn V c) (bkIn V c)))
    (fun t hf => flushed8_eq V c t hf) cover8

end Cert.KernelIdeal.AttnValue

end
-- ==== Proof.Pass2Value.lean ====
/-
  What the second region leaves in the result array, for any contents V of the arrays at its entry: row n is
  (V(n, ·) · A) · Woᵀ + bo, each block of 8192 rows written back by its own point.
-/
import proofs.«160793_j13984413516170_1_alg».proof.Proof.Gen.KernelIdeal.Frame
import proofs.«160793_j13984413516170_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

set_option maxRecDepth 16384

noncomputable section

namespace Cert.KernelIdeal.AttnValue

open Cert.KernelIdeal Cert.KernelIdeal.Gen Cert.Attn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The second region's input arrays at their literal types. -/
abbrev vIn (c : Dev nD) : FVec Ideal ⟨2, ![1048576, 8]⟩ .f32 := V c main_v4_0
abbrev aIn (c : Dev nD) : FVec Ideal ⟨2, ![8, 8]⟩ .f32 := V c main_v18
abbrev woIn (c : Dev nD) : FVec Ideal ⟨2, ![48, 8]⟩ .f32 := V c main_arg7
abbrev boIn (c : Dev nD) : Fin 48 → EReal := fun d => (V c main_v3 : FVec Ideal ⟨2, ![1, 48]⟩ .f32) (ix2 0 d)

/-! ## The two block products at an index

Each is a product into a zero accumulator, so its entry is the plain sum over the one contracted axis. The first
contracts the left operand's columns with the right operand's rows; the second contracts columns with columns (the
right operand is used transposed). -/

theorem lhs_va_0 (i : S8192x8.Idx) (q : dot_S8192x8_S8x8_S8192x8_1_0_0_1_n_n.contr.Idx) :
    (dot_S8192x8_S8x8_S8192x8_1_0_0_1_n_n.lhsIdx i q 0).val = (i 0).val := by
  unfold DotDims.lhsIdx
  rw [dif_neg (show ¬(0 : Fin S8192x8.rank) ∈ dot_S8192x8_S8x8_S8192x8_1_0_0_1_n_n.lhsBatch by decide), dif_pos (show (0 : Fin S8192x8.rank) ∈ dot_S8192x8_S8x8_S8192x8_1_0_0_1_n_n.lhsNonContracting by decide)]
  rfl
theorem lhs_va_1 (i : S8192x8.Idx) (q : dot_S8192x8_S8x8_S8192x8_1_0_0_1_n_n.contr.Idx) :
    (dot_S8192x8_S8x8_S8192x8_1_0_0_1_n_n.lhsIdx i q 1).val = (q ⟨0, by decide⟩).val :=
  dot_S8192x8_S8x8_S8192x8_1_0_0_1_n_n.lhsIdx_val_of_single rfl i q
theorem rhs_va_0 (i : S8192x8.Idx) (q : dot_S8192x8_S8x8_S8192x8_1_0_0_1_n_n.contr.Idx) :
    (dot_S8192x8_S8x8_S8192x8_1_0_0_1_n_n.rhsIdx i q 0).val = (q ⟨0, by decide⟩).val :=
  dot_S8192x8_S8x8_S8192x8_1_0_0_1_n_n.rhsIdx_val_of_single rfl i q
theorem rhs_va_1 (i : S8192x8.Idx) (q : dot_S8192x8_S8x8_S8192x8_1_0_0_1_n_n.contr.Idx) :
    (dot_S8192x8_S8x8_S8192x8_1_0_0_1_n_n.rhsIdx i q 1).val = (i 1).val := by
  unfold DotDims.rhsIdx
  rw [dif_neg (show ¬(1 : Fin S8x8.rank) ∈ dot_S8192x8_S8x8_S8192x8_1_0_0_1_n_n.rhsBatch by decide), dif_pos (show (1 : Fin S8x8.rank) ∈ dot_S8192x8_S8x8_S8192x8_1_0_0_1_n_n.rhsNonContracting by decide)]
  rfl

/-- The first product, V · A, at row `r` and column `h`. -/
theorem mm_va_apply (x : FVec Ideal S8192x8 .bf16) (y : FVec Ideal S8x8 .bf16) (r : Fin 8192) (h : Fin 8) :
    matmul dot_S8192x8_S8x8_S8192x8_1_0_0_1_n_n none x y (constant (F := Ideal) S8192x8 .f32 0x00000000#32) (ix2 r h)
      = ∑ j : Fin 8, x (ix2 r j) * y (ix2 j h) := by
  simp only [matmul]
  rw [Ideal.matmul_constant_zero_apply, ← Equiv.sum_comp (contrEquiv1 dot_S8192x8_S8x8_S8192x8_1_0_0_1_n_n 8 rfl rfl).symm]
  refine Finset.sum_congr rfl fun k _ => ?_
  have hk := contrEquiv1_symm_val dot_S8192x8_S8x8_S8192x8_1_0_0_1_n_n 8 rfl rfl k
  have el : dot_S8192x8_S8x8_S8192x8_1_0_0_1_n_n.lhsIdx (ix2 r h) ((contrEquiv1 dot_S8192x8_S8x8_S8192x8_1_0_0_1_n_n 8 rfl rfl).symm k) = ix2 r k := funext fun a => Fin.ext (by
    match a with
    | ⟨0, _⟩ => exact lhs_va_0 _ _
    | ⟨1, _⟩ => exact (lhs_va_1 _ _).trans hk)
  have er : dot_S8192x8_S8x8_S8192x8_1_0_0_1_n_n.rhsIdx (ix2 r h) ((contrEquiv1 dot_S8192x8_S8x8_S8192x8_1_0_0_1_n_n 8 rfl rfl).symm k) = ix2 k h := funext fun a => Fin.ext (by
    match a with
    | ⟨0, _⟩ => exact (rhs_va_0 _ _).trans hk
    | ⟨1, _⟩ => exact rhs_va_1 _ _)
  rw [el, er]

theorem lhs_vaw_0 (i : S8192x48.Idx) (q : dot_S8192x8_S48x8_S8192x48_1_1_0_0_n_n.contr.Idx) :
    (dot_S8192x8_S48x8_S8192x48_1_1_0_0_n_n.lhsIdx i q 0).val = (i 0).val := by
  unfold DotDims.lhsIdx
  rw [dif_neg (show ¬(0 : Fin S8192x8.rank) ∈ dot_S8192x8_S48x8_S8192x48_1_1_0_0_n_n.lhsBatch by decide), dif_pos (show (0 : Fin S8192x8.rank) ∈ dot_S8192x8_S48x8_S8192x48_1_1_0_0_n_n.lhsNonContracting by decide)]
  rfl
theorem lhs_vaw_1 (i : S8192x48.Idx) (q : dot_S8192x8_S48x8_S8192x48_1_1_0_0_n_n.contr.Idx) :
    (dot_S8192x8_S48x8_S8192x48_1_1_0_0_n_n.lhsIdx i q 1).val = (q ⟨0, by decide⟩).val :=
  dot_S8192x8_S48x8_S8192x48_1_1_0_0_n_n.lhsIdx_val_of_single rfl i q
theorem rhs_vaw_0 (i : S8192x48.Idx) (q : dot_S8192x8_S48x8_S8192x48_1_1_0_0_n_n.contr.Idx) :
    (dot_S8192x8_S48x8_S8192x48_1_1_0_0_n_n.rhsIdx i q 0).val = (i 1).val := by
  unfold DotDims.rhsIdx
  rw [dif_neg (show ¬(0 : Fin S48x8.rank) ∈ dot_S8192x8_S48x8_S8192x48_1_1_0_0_n_n.rhsBatch by decide), dif_pos (show (0 : Fin S48x8.rank) ∈ dot_S8192x8_S48x8_S8192x48_1_1_0_0_n_n.rhsNonContracting by decide)]
  rfl
theorem rhs_vaw_1 (i : S8192x48.Idx) (q : dot_S8192x8_S48x8_S8192x48_1_1_0_0_n_n.contr.Idx) :
    (dot_S8192x8_S48x8_S8192x48_1_1_0_0_n_n.rhsIdx i q 1).val = (q ⟨0, by decide⟩).val :=
  dot_S8192x8_S48x8_S8192x48_1_1_0_0_n_n.rhsIdx_val_of_single rfl i q

/-- The second product, (V · A) · Woᵀ, at row `r` and column `d`. -/
theorem mm_vaw_apply (x : FVec Ideal S8192x8 .bf16) (y : FVec Ideal S48x8 .bf16) (r : Fin 8192) (d : Fin 48) :
    matmul dot_S8192x8_S48x8_S8192x48_1_1_0_0_n_n none x y (constant (F := Ideal) S8192x48 .f32 0x00000000#32) (ix2 r d)
      = ∑ h : Fin 8, x (ix2 r h) * y (ix2 d h) := by
  simp only [matmul]
  rw [Ideal.matmul_constant_zero_apply, ← Equiv.sum_comp (contrEquiv1 dot_S8192x8_S48x8_S8192x48_1_1_0_0_n_n 8 rfl rfl).symm]
  refine Finset.sum_congr rfl fun k _ => ?_
  have hk := contrEquiv1_symm_val dot_S8192x8_S48x8_S8192x48_1_1_0_0_n_n 8 rfl rfl k
  have el : dot_S8192x8_S48x8_S8192x48_1_1_0_0_n_n.lhsIdx (ix2 r d) ((contrEquiv1 dot_S8192x8_S48x8_S8192x48_1_1_0_0_n_n 8 rfl rfl).symm k) = ix2 r k := funext fun a => Fin.ext (by
    match a with
    | ⟨0, _⟩ => exact lhs_vaw_0 _ _
    | ⟨1, _⟩ => exact (lhs_vaw_1 _ _).trans hk)
  have er : dot_S8192x8_S48x8_S8192x48_1_1_0_0_n_n.rhsIdx (ix2 r d) ((contrEquiv1 dot_S8192x8_S48x8_S8192x48_1_1_0_0_n_n 8 rfl rfl).symm k) = ix2 d k := funext fun a => Fin.ext (by
    match a with
    | ⟨0, _⟩ => exact rhs_vaw_0 _ _
    | ⟨1, _⟩ => exact (rhs_vaw_1 _ _).trans hk)
  rw [el, er]

/-- The output block's payload at a row and column. -/
theorem pay_out_apply (v : Vec Ideal S8192x8 .f32) (A : Vec Ideal S8x8 .f32) (Wo : Vec Ideal S48x8 .f32) (b : Vec Ideal S1x48 .f32) (r : Fin 8192) (d : Fin 48) :
    k1_pay1 (F := Ideal) v A Wo b (ix2 r d) = (∑ h : Fin 8, (∑ j : Fin 8, v (ix2 r j) * A (ix2 j h)) * Wo (ix2 d h)) + b (ix2 0 d) := by
  unfold k1_pay1
  simp only [shapeCast_self]
  refine (addf_apply _ _ _).trans ?_
  rw [mm_vaw_apply, broadcastTo_1b_ab_apply]
  refine congrArg (· + b (ix2 0 d)) (Finset.sum_congr rfl fun h _ => ?_)
  rw [truncf_apply, truncf_apply, mm_va_apply]
  rfl

/-! ## From the blocks to the array -/

theorem zero_offsets : (![0, 0] : Fin 2 → Nat) = fun _ => 0 := funext fun a => by fin_cases a <;> rfl

/-- The blocks' index maps over the grid: the value block and the output block of point `t` are block `t` along
    the rows, the three small operands are whole at every point. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The payload of a block whose operands are the arrays' blocks: the value block holds rows of the value array
    (block row `r` is array row `n`), the three small operands are the arrays themselves. -/
theorem pay_block (x0 : Vec Ideal S8192x8 .f32) (x1 : Vec Ideal S8x8 .f32) (x2 : Vec Ideal S48x8 .f32) (x3 : Vec Ideal S1x48 .f32)
    (Vv : FVec Ideal ⟨2, ![1048576, 8]⟩ .f32) (A : FVec Ideal ⟨2, ![8, 8]⟩ .f32) (Wo : FVec Ideal ⟨2, ![48, 8]⟩ .f32)
    (bo : Fin 48 → EReal) (n : Fin 1048576) (r : Fin 8192) (d : Fin 48)
    (h0 : ∀ k : Fin 8, x0 (ix2 r k) = Vv (ix2 n k)) (h1 : ∀ k h : Fin 8, x1 (ix2 k h) = A (ix2 k h))
    (h2 : ∀ h : Fin 8, x2 (ix2 d h) = Wo (ix2 d h)) (h3 : x3 (ix2 0 d) = bo d) :
    k1_pay1 (F := Ideal) x0 x1 x2 x3 (ix2 r d) = outp Vv A Wo bo (ix2 n d) := by
  rw [pay_out_apply, outp_ix2, h3]
  unfold outAt
  refine congrArg (· + bo d) (Finset.sum_congr rfl fun h _ => ?_)
  rw [h2 h]
  refine congrArg (· * Wo (ix2 d h)) (Finset.sum_congr rfl fun k _ => ?_)
  rw [h0 k, h1 k h]

/-- What point `t` writes back is block `t` of the specification's array. -/
theorem flushed4_eq (c : Dev nD) (t : Fin cfg1.N) :
    (dat1 (F := Ideal) V c).flushed 4 t
      = ((cfg1.win 4).blk t).view.read (Elt Ideal) (outp (vIn V c) (aIn V c) (woIn V c) (boIn V c)) := by
  show (cfg1.win 4).cut (grid1.coords t) ((dat1 (F := Ideal) V c).after 4 t) = _
  rw [after1_4]
  unfold out1_4
  rw [View.canon_unit_zero zero_offsets]
  simp only [View.ld_unit_zero (S := S8192x8) zero_offsets, View.ld_unit_zero (S := S8x8) zero_offsets,
    View.ld_unit_zero (S := S48x8) zero_offsets, View.ld_unit_zero (S := S1x48) zero_offsets]
  have ht : t.val < 128 := lt_of_lt_of_eq t.isLt N_1
  obtain ⟨e00, e01, e10, e11, e20, e21, e30, e31, e40, e41⟩ := index_facts t
  funext j
  obtain ⟨r, d, rfl⟩ : ∃ (r : Fin 8192) (d : Fin 48), j = ix2 r d := ⟨j 0, j 1, eq_ix2 j⟩
  have hr : r.val < 8192 := r.isLt
  have hemb : ((cfg1.win 4).blk t).view.emb (ix2 r d) = ix2 (⟨t.val * 8192 + r.val, by omega⟩ : Fin 1048576) d := by
    funext a; apply Fin.ext
    match a with
    | ⟨0, _⟩ => show win1_4.index t (0 : Fin 2) * 8192 + 1 * r.val = t.val * 8192 + r.val; omega
    | ⟨1, _⟩ => show win1_4.index t (1 : Fin 2) * 48 + 1 * d.val = d.val; omega
  show k1_pay1 (F := Ideal) (iblk1 V c 0 t) (iblk1 V c 1 t) (iblk1 V c 2 t) (iblk1 V c 3 t) (ix2 r d)
    = outp (vIn V c) (aIn V c) (woIn V c) (boIn V c) (((cfg1.win 4).blk t).view.emb (ix2 r d))
  rw [hemb]
  refine pay_block _ _ _ _ _ _ _ _ _ r d ?_ ?_ ?_ ?_
  · intro k
    show V c main_v4_0 (((cfg1.win 0).blk t).view.emb (ix2 r k)) = V c main_v4_0 (ix2 (⟨t.val * 8192 + r.val, by omega⟩ : Fin 1048576) k)
    refine congrArg (V c main_v4_0) (funext fun a => Fin.ext ?_)
    match a with
    | ⟨0, _⟩ => show win1_0.index t (0 : Fin 2) * 8192 + 1 * r.val = t.val * 8192 + r.val; omega
    | ⟨1, _⟩ => show win1_0.index t (1 : Fin 2) * 8 + 1 * k.val = k.val; omega
  · intro k h
    show V c main_v18 (((cfg1.win 1).blk t).view.emb (ix2 k h)) = V c main_v18 (ix2 k h)
    refine congrArg (V c main_v18) (funext fun a => Fin.ext ?_)
    match a with
    | ⟨0, _⟩ => show win1_1.index t (0 : Fin 2) * 8 + 1 * k.val = k.val; omega
    | ⟨1, _⟩ => show win1_1.index t (1 : Fin 2) * 8 + 1 * h.val = h.val; omega
  · intro h
    show V c main_arg7 (((cfg1.win 2).blk t).view.emb (ix2 d h)) = V c main_arg7 (ix2 d h)
    refine congrArg (V c main_arg7) (funext fun a => Fin.ext ?_)
    match a with
    | ⟨0, _⟩ => show win1_2.index t (0 : Fin 2) * 48 + 1 * d.val = d.val; omega
    | ⟨1, _⟩ => show win1_2.index t (1 : Fin 2) * 8 + 1 * h.val = h.val; omega
  · show V c main_v3 (((cfg1.win 3).blk t).view.emb (ix2 0 d)) = V c main_v3 (ix2 0 d)
    refine congrArg (V c main_v3) (funext fun a => Fin.ext ?_)
    match a with
    | ⟨0, _⟩ => show win1_3.index t (0 : Fin 2) * 1 + 1 * 0 = 0; omega
    | ⟨1, _⟩ => show win1_3.index t (1 : Fin 2) * 48 + 1 * d.val = d.val; omega

/-- An index of the result array is in point `t`'s block iff each coordinate is in the block's range on its axis. -/
theorem mem_blk4 (t : Fin cfg1.N) (i : S1048576x48.Idx) :
    i ∈ ((cfg1.win 4).blk t).view.set ↔ ∀ a : Fin 2, win1_4.index t a * S8192x48.size a ≤ (i a).val
      ∧ (i a).val < win1_4.index t a * S8192x48.size a + S8192x48.size a := by
  show i ∈ ((View.whole main_v19).slice (win1_4.rect t)).set ↔ _
  rw [View.set_slice_whole, Rect.mem_set_unit]
  exact Iff.rfl

/-- Every row of the result array is in some point's block: row `n` is in block `n / 8192`. -/
theorem cover4 (i : S1048576x48.Idx) :
    ∃ t : Fin cfg1.N, (cfg1.win 4).flush t = true ∧ i ∈ ((cfg1.win 4).blk t).view.set := by
  have hi0 : (i 0).val < 1048576 := (i 0).isLt
  have hi1 : (i 1).val < 48 := (i 1).isLt
  have hN : cfg1.N = 128 := N_1
  let t : Fin cfg1.N := ⟨(i 0).val / 8192, by rw [hN]; omega⟩
  have htv : t.val = (i 0).val / 8192 := rfl
  obtain ⟨-, -, -, -, -, -, -, -, e40, e41⟩ := index_facts t
  refine ⟨t, flush1_4 t, ?_⟩
  rw [mem_blk4]
  intro a
  match a with
  | ⟨0, _⟩ =>
    show win1_4.index t (0 : Fin 2) * 8192 ≤ (i 0).val ∧ (i 0).val < win1_4.index t (0 : Fin 2) * 8192 + 8192
    omega
  | ⟨1, _⟩ =>
    show win1_4.index t (1 : Fin 2) * 48 ≤ (i 1).val ∧ (i 1).val < win1_4.index t (1 : Fin 2) * 48 + 48
    omega

/-- The result array after the region. -/
theorem arr4 (c : Dev nD) : (dat1 (F := Ideal) V c).arrAt 4 cfg1.N = outp (vIn V c) (aIn V c) (woIn V c) (boIn V c) :=
  (dat1 (F := Ideal) V c).arrAt_eq_of_cover 4 (outp (vIn V c) (aIn V c) (woIn V c) (boIn V c))
    (fun t _ => flushed4_eq V c t) cover4

end Cert.KernelIdeal.AttnValue

end
-- ==== Proof.HostValues.lean ====
/-
  The host operations around the two regions, read as values.  Before the first region the three biases are
  reshaped [8] → [1, 8] (and the output bias [48] → [1, 48]): entry (0, j) of the reshaped array is entry j of
  the bias.  Between the regions the scores become the attention matrix: each row's softmax, divided by √8; that
  chain of operations is carried as ONE function `soft` of the scores and is never opened.  No host operation
  writes an argument array or the V array.
-/
import proofs.«160793_j13984413516170_1_alg».proof.Proof.Gen.KernelIdeal.Frame
import proofs.«160793_j13984413516170_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

set_option maxRecDepth 16384

noncomputable section

namespace Cert.KernelIdeal.AttnValue

open Cert.KernelIdeal Cert.KernelIdeal.Gen Cert.Attn
open Idealize.ShloMosaic Idealize.ShloMosaic.TcCoe Idealize.SL.Sem Idealize.ShloMosaic.ValueIdx
open Idealize.ShloMosaic.Pipeline (Dat)

/-- The attention matrix as a function of the scores: the host operations between the two regions, in their
    printed order (row maxima, exponentials of the differences, row sums, the quotient, then the quotient by √8). -/
def soft (s : FVec Ideal S8x8 .f32) : FVec Ideal S8x8 .f32 :=
  Host.divf
    (Host.divf
      (Host.exp (subf s (broadcastInDim S8x8 ![0, 1] bcast_S8x1_S8x8_0_1 (broadcastInDim S8x1 ![0] bcast_S8_S8x1_0
        (maximumf (broadcastInDim S8 ![] bcast_S_S8 (constant (F := Ideal) S_ .f32 0xFF800000#32))
          (Host.reduce FloatOps.maximumf s (constant (F := Ideal) S_ .f32 0xFF800000#32) reducesTo_S8x8_S8_d1 h_S_))))))
      (broadcastInDim S8x8 ![0, 1] bcast_S8x1_S8x8_0_1 (broadcastInDim S8x1 ![0] bcast_S8_S8x1_0
        (Host.reduceAdd
          (Host.exp (subf s (broadcastInDim S8x8 ![0, 1] bcast_S8x1_S8x8_0_1 (broadcastInDim S8x1 ![0] bcast_S8_S8x1_0
            (maximumf (broadcastInDim S8 ![] bcast_S_S8 (constant (F := Ideal) S_ .f32 0xFF800000#32))
              (Host.reduce FloatOps.maximumf s (constant (F := Ideal) S_ .f32 0xFF800000#32) reducesTo_S8x8_S8_d1 h_S_))))))
          (constant (F := Ideal) S_ .f32 0x00000000#32) reducesTo_S8x8_S8_d1 h_S_))))
    (broadcastInDim S8x8 ![] bcast_S_S8x8 (Host.sqrt (constant (F := Ideal) S_ .f32 0x41000000#32)))

variable (m : (ℓ : Loc nD τ sig) → Buf (Elt Ideal) ℓ) (ρ : Dev nD → PrngReg)

/-- A line of host operations leaves every buffer that is the result of none of them as it was. -/
local macro "untouched" : tactic =>
  `(tactic| (refine StableHlo.after_of_forall_not_mem _ _ (List.forall_iff_forall_mem.mp ?_)
             simp only [hostOps0, hostOps1, List.Forall, StableHlo.nullary_writes, StableHlo.unary_writes,
               StableHlo.binary_writes, StableHlo.reshape_writes, Finset.mem_singleton]
             repeat' apply And.intro
             all_goals exact StableHlo.devRef_ne_of_ne (by decide)))

/-! ## At the first region's entry (after the four reshapes) -/

theorem V1_arg0 (c : Dev nD) : V1 m ρ c main_arg0 = m ((c : Thread nD τ).loc main_arg0) := by
  show StableHlo.after hostOps0 (W0 m ρ c) (Proc.devRef .tc main_arg0) = W0 m ρ c (Proc.devRef .tc main_arg0)
  untouched
theorem V1_arg1 (c : Dev nD) : V1 m ρ c main_arg1 = m ((c : Thread nD τ).loc main_arg1) := by
  show StableHlo.after hostOps0 (W0 m ρ c) (Proc.devRef .tc main_arg1) = W0 m ρ c (Proc.devRef .tc main_arg1)
  untouched
theorem V1_arg3 (c : Dev nD) : V1 m ρ c main_arg3 = m ((c : Thread nD τ).loc main_arg3) := by
  show StableHlo.after hostOps0 (W0 m ρ c) (Proc.devRef .tc main_arg3) = W0 m ρ c (Proc.devRef .tc main_arg3)
  untouched
theorem V1_arg5 (c : Dev nD) : V1 m ρ c main_arg5 = m ((c : Thread nD τ).loc main_arg5) := by
  show StableHlo.after hostOps0 (W0 m ρ c) (Proc.devRef .tc main_arg5) = W0 m ρ c (Proc.devRef .tc main_arg5)
  untouched

/-- The first bias reshape, as a whole array. -/
theorem W1_v0 (c : Dev nD) : (W1 m ρ c (Proc.devRef .tc main_v0) : FVec Ideal ⟨2, ![1, 8]⟩ .f32)
    = shapeCast ⟨2, ![1, 8]⟩ (m ((c : Thread nD τ).loc main_arg4) : FVec Ideal ⟨1, ![8]⟩ .f32) shapeCasts_S8_S1x8 := by
  show StableHlo.after hostOps0 (W0 m ρ c) (Proc.devRef .tc main_v0) = _
  after_results
  rfl
/-- The second bias reshape, as a whole array. -/
theorem W1_v1 (c : Dev nD) : (W1 m ρ c (Proc.devRef .tc main_v1) : FVec Ideal ⟨2, ![1, 8]⟩ .f32)
    = shapeCast ⟨2, ![1, 8]⟩ (m ((c : Thread nD τ).loc main_arg2) : FVec Ideal ⟨1, ![8]⟩ .f32) shapeCasts_S8_S1x8 := by
  show StableHlo.after hostOps0 (W0 m ρ c) (Proc.devRef .tc main_v1) = _
  after_results
  rfl
/-- The third bias reshape, as a whole array. -/
theorem W1_v2 (c : Dev nD) : (W1 m ρ c (Proc.devRef .tc main_v2) : FVec Ideal ⟨2, ![1, 8]⟩ .f32)
    = shapeCast ⟨2, ![1, 8]⟩ (m ((c : Thread nD τ).loc main_arg6) : FVec Ideal ⟨1, ![8]⟩ .f32) shapeCasts_S8_S1x8 := by
  show StableHlo.after hostOps0 (W0 m ρ c) (Proc.devRef .tc main_v2) = _
  after_results
  rfl
/-- The output bias reshape, as a whole array. -/
theorem W1_v3 (c : Dev nD) : (W1 m ρ c (Proc.devRef .tc main_v3) : FVec Ideal ⟨2, ![1, 48]⟩ .f32)
    = shapeCast ⟨2, ![1, 48]⟩ (m ((c : Thread nD τ).loc main_arg8) : FVec Ideal ⟨1, ![48]⟩ .f32) shapeCasts_S48_S1x48 := by
  show StableHlo.after hostOps0 (W0 m ρ c) (Proc.devRef .tc main_v3) = _
  after_results
  rfl
/-- bq: main_v0 is the reshape of main_arg4. -/
theorem V1_v0 (c : Dev nD) (j : Fin 8) : (V1 m ρ c main_v0 : FVec Ideal ⟨2, ![1, 8]⟩ .f32) (ix2 0 j)
    = (m ((c : Thread nD τ).loc main_arg4) : FVec Ideal ⟨1, ![8]⟩ .f32) (ix1 j) :=
  (congrFun (W1_v0 m ρ c) (ix2 0 j)).trans (shapeCast_a_1a_apply _ _ 0 j)
/-- bk: main_v1 is the reshape of main_arg2. -/
theorem V1_v1 (c : Dev nD) (j : Fin 8) : (V1 m ρ c main_v1 : FVec Ideal ⟨2, ![1, 8]⟩ .f32) (ix2 0 j)
    = (m ((c : Thread nD τ).loc main_arg2) : FVec Ideal ⟨1, ![8]⟩ .f32) (ix1 j) :=
  (congrFun (W1_v1 m ρ c) (ix2 0 j)).trans (shapeCast_a_1a_apply _ _ 0 j)
/-- bv: main_v2 is the reshape of main_arg6. -/
theorem V1_v2 (c : Dev nD) (j : Fin 8) : (V1 m ρ c main_v2 : FVec Ideal ⟨2, ![1, 8]⟩ .f32) (ix2 0 j)
    = (m ((c : Thread nD τ).loc main_arg6) : FVec Ideal ⟨1, ![8]⟩ .f32) (ix1 j) :=
  (congrFun (W1_v2 m ρ c) (ix2 0 j)).trans (shapeCast_a_1a_apply _ _ 0 j)

/-! ## At the second region's entry (after the softmax stretch, from the first region's exit contents) -/

/-- The attention matrix is `soft` of the scores array as the first region left it. -/
theorem V3_v18 (c : Dev nD) : V3 m ρ c main_v18 = soft (V2 m ρ c main_v4_1) := by
  show StableHlo.after hostOps1 (W2 m ρ c) (Proc.devRef .tc main_v18) = soft (W2 m ρ c (Proc.devRef .tc main_v4_1))
  after_results
  rfl
/-- The V array is as the first region left it. -/
theorem V3_v4_0 (c : Dev nD) : V3 m ρ c main_v4_0 = V2 m ρ c main_v4_0 := by
  show StableHlo.after hostOps1 (W2 m ρ c) (Proc.devRef .tc main_v4_0) = W2 m ρ c (Proc.devRef .tc main_v4_0)
  untouched
/-- Wo is as launched. -/
theorem V3_arg7 (c : Dev nD) : V3 m ρ c main_arg7 = m ((c : Thread nD τ).loc main_arg7) :=
  calc V3 m ρ c main_arg7
    _ = W2 m ρ c (Proc.devRef .tc main_arg7) := by
          show StableHlo.after hostOps1 (W2 m ρ c) (Proc.devRef .tc main_arg7) = _
          untouched
    _ = W1 m ρ c (Proc.devRef .tc main_arg7) := W2_of_ne m ρ c main_arg7 (by decide)
    _ = W0 m ρ c (Proc.devRef .tc main_arg7) := by
          show StableHlo.after hostOps0 (W0 m ρ c) (Proc.devRef .tc main_arg7) = _
          untouched
    _ = m ((c : Thread nD τ).loc main_arg7) := rfl
/-- bo: main_v3 is the reshape of main_arg8, untouched since. -/
theorem V3_v3 (c : Dev nD) (d : Fin 48) : (V3 m ρ c main_v3 : FVec Ideal ⟨2, ![1, 48]⟩ .f32) (ix2 0 d)
    = (m ((c : Thread nD τ).loc main_arg8) : FVec Ideal ⟨1, ![48]⟩ .f32) (ix1 d) := by
  have e : V3 m ρ c main_v3 = W1 m ρ c (Proc.devRef .tc main_v3) :=
    calc V3 m ρ c main_v3
      _ = W2 m ρ c (Proc.devRef .tc main_v3) := by
            show StableHlo.after hostOps1 (W2 m ρ c) (Proc.devRef .tc main_v3) = _
            untouched
      _ = W1 m ρ c (Proc.devRef .tc main_v3) := W2_of_ne m ρ c main_v3 (by decide)
  exact (congrFun (e.trans (W1_v3 m ρ c)) (ix2 0 d)).trans (shapeCast_a_1a_apply _ _ 0 d)

end Cert.KernelIdeal.AttnValue

end
-- ==== Proof.KernelValue.lean ====
/-
  The idealized kernel's result array as one function of the nine argument arrays.
  Reading backwards from the end of @main: the result array is what the second region's write-backs leave, row n
  being (V(n, ·) · A) · Woᵀ + bo; at that region's entry V is the array the first region wrote, A is `soft` of the
  scores array the first region wrote, Wo is as launched and bo is the reshaped output bias; the first region's two
  arrays are the V projection of x and QᵀK of the Q and K projections, its weights as launched and its biases the
  reshaped ones.  Together: attn soft x Wk bk Wq bq Wv bv Wo bo.
-/
import proofs.«160793_j13984413516170_1_alg».proof.Proof.Gen.KernelIdeal.Frame
import proofs.«160793_j13984413516170_1_alg».proof.Proof.Spec
import proofs.«160793_j13984413516170_1_alg».proof.Proof.Whole
import proofs.«160793_j13984413516170_1_alg».proof.Proof.Pass1Value
import proofs.«160793_j13984413516170_1_alg».proof.Proof.Pass2Value
import proofs.«160793_j13984413516170_1_alg».proof.Proof.HostValues

set_option maxRecDepth 16384

noncomputable section

namespace Cert.KernelIdeal.AttnValue

open Cert.KernelIdeal Cert.KernelIdeal.Gen Cert.Attn
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The V array the second region reads: the first region's V array, the V projection of x. -/
theorem vIn_eq (c : Dev nD) : vIn (V3 m ρ) c
    = proj (m ((c : Thread nD τ).loc main_arg0)) (m ((c : Thread nD τ).loc main_arg5)) (fun j => (m ((c : Thread nD τ).loc main_arg6) : FVec Ideal ⟨1, ![8]⟩ .f32) (ix1 j)) := by
  have e0 : xIn (V1 m ρ) c = m ((c : Thread nD τ).loc main_arg0) := V1_arg0 m ρ c
  have e5 : wvIn (V1 m ρ) c = m ((c : Thread nD τ).loc main_arg5) := V1_arg5 m ρ c
  have e6 : bvIn (V1 m ρ) c = fun j => (m ((c : Thread nD τ).loc main_arg6) : FVec Ideal ⟨1, ![8]⟩ .f32) (ix1 j) := funext fun j => V1_v2 m ρ c j
  have h2 : V2 m ρ c main_v4_0 = (dat0 (F := Ideal) (V1 m ρ) c).arrAt 7 cfg0.N := W2_arr m ρ c 7
  show V3 m ρ c main_v4_0 = _
  rw [V3_v4_0 m ρ c, h2, arr7 (V1 m ρ) c, e0, e5, e6]

/-- The attention matrix the second region reads: `soft` of the first region's scores array, QᵀK of the projections. -/
theorem aIn_eq (c : Dev nD) : aIn (V3 m ρ) c
    = soft (gram (proj (m ((c : Thread nD τ).loc main_arg0)) (m ((c : Thread nD τ).loc main_arg3)) (fun j => (m ((c : Thread nD τ).loc main_arg4) : FVec Ideal ⟨1, ![8]⟩ .f32) (ix1 j)))
        (proj (m ((c : Thread nD τ).loc main_arg0)) (m ((c : Thread nD τ).loc main_arg1)) (fun j => (m ((c : Thread nD τ).loc main_arg2) : FVec Ideal ⟨1, ![8]⟩ .f32) (ix1 j)))) := by
  have e0 : xIn (V1 m ρ) c = m ((c : Thread nD τ).loc main_arg0) := V1_arg0 m ρ c
  have e3 : wqIn (V1 m ρ) c = m ((c : Thread nD τ).loc main_arg3) := V1_arg3 m ρ c
  have e1 : wkIn (V1 m ρ) c = m ((c : Thread nD τ).loc main_arg1) := V1_arg1 m ρ c
  have e4 : bqIn (V1 m ρ) c = fun j => (m ((c : Thread nD τ).loc main_arg4) : FVec Ideal ⟨1, ![8]⟩ .f32) (ix1 j) := funext fun j => V1_v0 m ρ c j
  have e2 : bkIn (V1 m ρ) c = fun j => (m ((c : Thread nD τ).loc main_arg2) : FVec Ideal ⟨1, ![8]⟩ .f32) (ix1 j) := funext fun j => V1_v1 m ρ c j
  have h2 : V2 m ρ c main_v4_1 = (dat0 (F := Ideal) (V1 m ρ) c).arrAt 8 cfg0.N := W2_arr m ρ c 8
  show V3 m ρ c main_v18 = _
  rw [V3_v18 m ρ c, h2, arr8 (V1 m ρ) c, e0, e3, e1, e4, e2]

/-- The result array at the end of @main. -/
theorem result_eq (c : Dev nD) : W4 m ρ c (Proc.devRef .tc main_v19)
    = attn soft (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h4 : W4 m ρ c (Proc.devRef .tc main_v19) = (dat1 (F := Ideal) (V3 m ρ) c).arrAt 4 cfg1.N := W4_arr m ρ c 4
  have e7 : woIn (V3 m ρ) c = m ((c : Thread nD τ).loc main_arg7) := V3_arg7 m ρ c
  have e8 : boIn (V3 m ρ) c = fun d => (m ((c : Thread nD τ).loc main_arg8) : FVec Ideal ⟨1, ![48]⟩ .f32) (ix1 d) := funext fun d => V3_v3 m ρ c d
  rw [h4, arr4 (V3 m ρ) c, vIn_eq m ρ c, aIn_eq m ρ c, e7, e8]
  rfl

end Cert.KernelIdeal.AttnValue

end
-- ==== Proof.RefValue.lean ====
/-
  The reference, read as values: its result array is (V · soft(QᵀK)) · Woᵀ + bo of the three projections of x.

  Read one operation at a time, at an index with explicit coordinates:
    * x · Wᵀ is a sum over the 48 columns, the transposed weight read back at (j, k), and the bias, broadcast
      through [1, 8] to every row, read back at j: each of the three projections is `proj`;
    * the product contracting the rows of Q and K is, at (h, k), the one sum over all rows: `gram`;
    * the chain of host operations between the scores and the attention matrix is, as a text, `softR`;
    * (V · A) · Woᵀ + bo is, at (n, d), the double sum of `outAt` and the bias read back at d: `outp`.
  Composed, the result is `attn softR` of the nine arguments.
-/
import proofs.«160793_j13984413516170_1_alg».proof.Proof.Gen.ReferenceIdeal.Run
import proofs.«160793_j13984413516170_1_alg».proof.Proof.Gen.ReferenceIdeal.Read
import proofs.«160793_j13984413516170_1_alg».proof.Proof.Spec
import proofs.«160793_j13984413516170_1_alg».proof.Proof.Whole
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

set_option maxRecDepth 16384

noncomputable section

namespace Cert.ReferenceIdeal.AttnValue

open Cert.ReferenceIdeal Cert.ReferenceIdeal.Gen Cert.Attn
open Idealize.ShloMosaic Idealize.ShloMosaic.TcCoe Idealize.SL.Sem Idealize.ShloMosaic.ValueIdx

/-- The attention matrix as a function of the scores: the reference's own host operations, in their printed order. -/
def softR (s : FVec Ideal S8x8 .f32) : FVec Ideal S8x8 .f32 :=
  Host.divf
    (Host.divf
      (Host.exp (subf s (broadcastInDim S8x8 ![0, 1] bcast_S8x1_S8x8_0_1 (broadcastInDim S8x1 ![0] bcast_S8_S8x1_0
        (maximumf (broadcastInDim S8 ![] bcast_S_S8 (constant (F := Ideal) S_ .f32 0xFF800000#32))
          (Host.reduce FloatOps.maximumf s (constant (F := Ideal) S_ .f32 0xFF800000#32) reducesTo_S8x8_S8_d1 h_S_))))))
      (broadcastInDim S8x8 ![0, 1] bcast_S8x1_S8x8_0_1 (broadcastInDim S8x1 ![0] bcast_S8_S8x1_0
        (Host.reduceAdd
          (Host.exp (subf s (broadcastInDim S8x8 ![0, 1] bcast_S8x1_S8x8_0_1 (broadcastInDim S8x1 ![0] bcast_S8_S8x1_0
            (maximumf (broadcastInDim S8 ![] bcast_S_S8 (constant (F := Ideal) S_ .f32 0xFF800000#32))
              (Host.reduce FloatOps.maximumf s (constant (F := Ideal) S_ .f32 0xFF800000#32) reducesTo_S8x8_S8_d1 h_S_))))))
          (constant (F := Ideal) S_ .f32 0x00000000#32) reducesTo_S8x8_S8_d1 h_S_))))
    (broadcastInDim S8x8 ![] bcast_S_S8x8 (Host.sqrt (constant (F := Ideal) S_ .f32 0x41000000#32)))

/-! ## The three projections -/

section Values

open Cert.ReferenceIdeal.Read

variable (x0 : (⟨S1048576x48, .f32⟩ : BufTy).Contents (Elt Ideal))
  (x1 x3 x5 : (⟨S8x48, .f32⟩ : BufTy).Contents (Elt Ideal))
  (x2 x4 x6 : (⟨S8, .f32⟩ : BufTy).Contents (Elt Ideal))
  (x7 : (⟨S48x8, .f32⟩ : BufTy).Contents (Elt Ideal))
  (x8 : (⟨S48, .f32⟩ : BufTy).Contents (Elt Ideal))

/-- K = x · Wkᵀ + bk: at (n, j) the sum over the 48 columns of x(n, k) · Wk(j, k), plus bk(j). -/
theorem projK : val_main_v4 (F := Ideal) x0 x1 x2 = proj x0 x1 (fun j => x2 (ix1 j)) := by
  funext i
  obtain ⟨n, j, rfl⟩ : ∃ (n : Fin 1048576) (j : Fin 8), i = ix2 n j := ⟨i 0, i 1, eq_ix2 i⟩
  have el : ∀ k : Fin 48, lidx_main_v1 (ix2 n j) k = ix2 n k := fun k =>
    funext fun a => Fin.ext (by match a with | ⟨0, _⟩ => rfl | ⟨1, _⟩ => rfl)
  have er : ∀ k : Fin 48, idx_main_v0 (ridx_main_v1 (ix2 n j) k) = ix2 j k := fun k =>
    funext fun a => Fin.ext (by match a with | ⟨0, _⟩ => rfl | ⟨1, _⟩ => rfl)
  have eb : idx_main_v2 (idx_main_v3 (ix2 n j)) = ix1 j :=
    funext fun a => Fin.ext (by match a with | ⟨0, _⟩ => rfl)
  rw [val_main_v4_apply, val_main_v1_apply, val_main_v3_apply, val_main_v2_apply]
  simp only [val_main_v0_apply, el, er, eb, Ideal.addf_def]
  rfl

/-- Q = x · Wqᵀ + bq. -/
theorem projQ : val_main_v9 (F := Ideal) x0 x3 x4 = proj x0 x3 (fun j => x4 (ix1 j)) := by
  funext i
  obtain ⟨n, j, rfl⟩ : ∃ (n : Fin 1048576) (j : Fin 8), i = ix2 n j := ⟨i 0, i 1, eq_ix2 i⟩
  have el : ∀ k : Fin 48, lidx_main_v6 (ix2 n j) k = ix2 n k := fun k =>
    funext fun a => Fin.ext (by match a with | ⟨0, _⟩ => rfl | ⟨1, _⟩ => rfl)
  have er : ∀ k : Fin 48, idx_main_v5 (ridx_main_v6 (ix2 n j) k) = ix2 j k := fun k =>
    funext fun a => Fin.ext (by match a with | ⟨0, _⟩ => rfl | ⟨1, _⟩ => rfl)
  have eb : idx_main_v7 (idx_main_v8 (ix2 n j)) = ix1 j :=
    funext fun a => Fin.ext (by match a with | ⟨0, _⟩ => rfl)
  rw [val_main_v9_apply, val_main_v6_apply, val_main_v8_apply, val_main_v7_apply]
  simp only [val_main_v5_apply, el, er, eb, Ideal.addf_def]
  rfl

/-- V = x · Wvᵀ + bv. -/
theorem projV : val_main_v14 (F := Ideal) x0 x5 x6 = proj x0 x5 (fun j => x6 (ix1 j)) := by
  funext i
  obtain ⟨n, j, rfl⟩ : ∃ (n : Fin 1048576) (j : Fin 8), i = ix2 n j := ⟨i 0, i 1, eq_ix2 i⟩
  have el : ∀ k : Fin 48, lidx_main_v11 (ix2 n j) k = ix2 n k := fun k =>
    funext fun a => Fin.ext (by match a with | ⟨0, _⟩ => rfl | ⟨1, _⟩ => rfl)
  have er : ∀ k : Fin 48, idx_main_v10 (ridx_main_v11 (ix2 n j) k) = ix2 j k := fun k =>
    funext fun a => Fin.ext (by match a with | ⟨0, _⟩ => rfl | ⟨1, _⟩ => rfl)
  have eb : idx_main_v12 (idx_main_v13 (ix2 n j)) = ix1 j :=
    funext fun a => Fin.ext (by match a with | ⟨0, _⟩ => rfl)
  rw [val_main_v14_apply, val_main_v11_apply, val_main_v13_apply, val_main_v12_apply]
  simp only [val_main_v10_apply, el, er, eb, Ideal.addf_def]
  rfl

/-! ## The scores, the attention matrix, the output -/

/-- The product contracting the rows: at (h, k) the sum over all rows n of Q(n, h) · K(n, k). -/
theorem scores : val_main_v15 (F := Ideal) x0 x1 x2 x3 x4
    = gram (val_main_v9 (F := Ideal) x0 x3 x4) (val_main_v4 (F := Ideal) x0 x1 x2) := by
  funext i
  obtain ⟨h, k, rfl⟩ : ∃ (h : Fin 8) (k : Fin 8), i = ix2 h k := ⟨i 0, i 1, eq_ix2 i⟩
  have el : ∀ n : Fin 1048576, lidx_main_v15 (ix2 h k) n = ix2 n h := fun n =>
    funext fun a => Fin.ext (by match a with | ⟨0, _⟩ => rfl | ⟨1, _⟩ => rfl)
  have er : ∀ n : Fin 1048576, ridx_main_v15 (ix2 h k) n = ix2 n k := fun n =>
    funext fun a => Fin.ext (by match a with | ⟨0, _⟩ => rfl | ⟨1, _⟩ => rfl)
  rw [val_main_v15_apply]
  simp only [el, er]
  rfl

/-- The host operations between the scores and the attention matrix are, as a text, `softR` of the scores. -/
theorem soft : val_main_v29 (F := Ideal) x0 x1 x2 x3 x4 = softR (val_main_v15 (F := Ideal) x0 x1 x2 x3 x4) := by
  unfold softR val_main_v29 val_main_v28 val_main_v27 val_main_cst_2 val_main_v26 val_main_v25 val_main_v24
    val_main_v23 val_main_cst_1 val_main_v22 val_main_v21 val_main_v20 val_main_v19 val_main_v18 val_main_v17
    val_main_cst_0 val_main_v16 val_main_cst
  rfl

/-- (V · A) · Woᵀ + bo: at (n, d) the sum over h of (the sum over j of V(n, j) · A(j, h)) · Wo(d, h), plus bo(d). -/
theorem out : val_main_v35 (F := Ideal) x0 x1 x2 x3 x4 x5 x6 x7 x8
    = outp (val_main_v14 (F := Ideal) x0 x5 x6) (val_main_v29 (F := Ideal) x0 x1 x2 x3 x4) x7 (fun d => x8 (ix1 d)) := by
  funext i
  obtain ⟨n, d, rfl⟩ : ∃ (n : Fin 1048576) (d : Fin 48), i = ix2 n d := ⟨i 0, i 1, eq_ix2 i⟩
  have e1 : ∀ (h j : Fin 8), lidx_main_v30 (lidx_main_v32 (ix2 n d) h) j = ix2 n j := fun h j =>
    funext fun a => Fin.ext (by match a with | ⟨0, _⟩ => rfl | ⟨1, _⟩ => rfl)
  have e2 : ∀ (h j : Fin 8), ridx_main_v30 (lidx_main_v32 (ix2 n d) h) j = ix2 j h := fun h j =>
    funext fun a => Fin.ext (by match a with | ⟨0, _⟩ => rfl | ⟨1, _⟩ => rfl)
  have e3 : ∀ h : Fin 8, idx_main_v31 (ridx_main_v32 (ix2 n d) h) = ix2 d h := fun h =>
    funext fun a => Fin.ext (by match a with | ⟨0, _⟩ => rfl | ⟨1, _⟩ => rfl)
  have e4 : idx_main_v33 (idx_main_v34 (ix2 n d)) = ix1 d :=
    funext fun a => Fin.ext (by match a with | ⟨0, _⟩ => rfl)
  rw [val_main_v35_apply, val_main_v32_apply, val_main_v34_apply, val_main_v33_apply]
  simp only [val_main_v30_apply, val_main_v31_apply, e1, e2, e3, e4, Ideal.addf_def]
  rfl

/-- The reference's result as one function of its nine arguments. -/
theorem value : val_main_v35 (F := Ideal) x0 x1 x2 x3 x4 x5 x6 x7 x8
    = Cert.Attn.attn softR x0 x1 x2 x3 x4 x5 x6 x7 x8 := by
  rw [out, soft, scores, projK, projQ, projV]
  rfl

end Values

/-! ## The run -/

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v35)
        = Cert.Attn.attn softR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono
    (fun _ h c => ⟨(h c).1.trans ((Cert.ReferenceIdeal.Read.val_main_v35_eq (F := Ideal) m c).trans (value _ _ _ _ _ _ _ _ _)), (h c).2⟩)
    (Cert.ReferenceIdeal.Value.run (F := Ideal) m ρ)

end Cert.ReferenceIdeal.AttnValue

end
-- ==== Proof.lean ====
/- The proof of `Cert.Claim` for the fused attention block: with N = 1048576 rows of x : [N, 48],
     Q = x·Wqᵀ + bq,  K = x·Wkᵀ + bk,  V = x·Wvᵀ + bv   (each [N, 8]),
     A = softmax over the rows of QᵀK, divided by √8      ([8, 8]),
     out = (V·A)·Woᵀ + bo                                  ([N, 48]).
   The kernel makes two passes over x in 128 blocks of 8192 rows: the first writes V and adds each block's
   Q_blkᵀ K_blk into an 8 × 8 buffer that starts at zero, the second forms (V_blk·A)·Woᵀ + bo; the reference does the
   same with whole-array products.  On the extended reals a change of float format is the identity and a matrix product
   is the plain sum over the contracted axis, so the one difference is that the scores are summed block by block: a sum
   over 128 · 8192 rows split by quotient and remainder, true in any commutative monoid (Spec.lean, `sum_blocks`); no
   finiteness of the inputs is used.  The chain from the scores to A is the same list of host operations in both
   programs and is carried as one function.
   Modules: Spec and Whole (the mathematics), KernelRun (the kernel's run with its result named), Pass1Pieces,
   Pass1Payloads and Pass1Value (the first region: the V array and the scores), Pass2Value (the second region),
   HostValues (the reshaped biases and the chain), KernelValue (the kernel's result as one function of the arguments),
   RefValue (the reference's), and the five claims below. -/
import proofs.«160793_j13984413516170_1_alg».proof.Defs
import proofs.«160793_j13984413516170_1_alg».proof.Proof.Gen.Kernel
import proofs.«160793_j13984413516170_1_alg».proof.Proof.Gen.Kernel.Frame
import proofs.«160793_j13984413516170_1_alg».proof.Proof.Gen.KernelIdeal
import proofs.«160793_j13984413516170_1_alg».proof.Proof.Gen.KernelIdeal.Frame
import proofs.«160793_j13984413516170_1_alg».proof.Proof.Gen.ReferenceIdeal
import proofs.«160793_j13984413516170_1_alg».proof.Proof.Gen.ReferenceIdeal.Run
import proofs.«160793_j13984413516170_1_alg».proof.Proof.Gen.Pre_finite_inputs
import proofs.«160793_j13984413516170_1_alg».proof.Proof.Spec
import proofs.«160793_j13984413516170_1_alg».proof.Proof.Whole
import proofs.«160793_j13984413516170_1_alg».proof.Proof.KernelRun
import proofs.«160793_j13984413516170_1_alg».proof.Proof.KernelValue
import proofs.«160793_j13984413516170_1_alg».proof.Proof.RefValue

noncomputable section

namespace Cert.Proof

open Idealize.ShloMosaic Idealize.ShloMosaic.TcCoe Idealize.SL.Sem Cert.Attn

/-- Both programs turn the scores into the attention matrix by the same chain of host operations: one function. -/
theorem soft_eq : Cert.KernelIdeal.AttnValue.soft = Cert.ReferenceIdeal.AttnValue.softR := rfl

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- On the extended reals both programs end with the result array at attn σ x Wk bk Wq bq Wv bv Wo bo, σ the shared
    chain from the scores to the attention matrix: the kernel by its two regions' write-backs read back, the
    reference by its host operations read one at a time; the arguments agree, so the two arrays are equal. -/
theorem algebraic : Cert.algebraic_KernelIdeal_ReferenceIdeal := by
  intro m ρ m' ρ' _ hagree
  refine ⟨fun c => attn Cert.KernelIdeal.AttnValue.soft (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.AttnValue.result_eq m ρ c), (h c).2⟩)
      (Cert.KernelIdeal.Gen.run_main (F := Ideal) m ρ)
  · refine (θ_run Cert.ReferenceIdeal.defs _ _).mono (fun _ h c => ⟨(h c).1.trans ?_, (h c).2⟩) (Cert.ReferenceIdeal.AttnValue.run m' ρ')
    obtain ⟨h0, h1, h2, h3, h4, h5, h6, h7, h8⟩ := hagree c
    rw [h0, h1, h2, h3, h4, h5, h6, h7, h8, soft_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
